-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S1x8x16 : Shape := ⟨3, ![1, 8, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x8x16 : S_.BroadcastsInDim S1x8x16 (![] : Fin 0 → Fin S1x8x16.rank)
  reducesTo_S1x8x16_S_d0_1_2 : S1x8x16.ReducesTo [0, 1, 2] S_

variable [Facts]

def fn_part1 {F : FTy → Type} [FloatOps F] (main_arg5 : FVec F S1x8x16 .f32) (main_v13 : IVec S_ 1) (main_v16 : IVec S1x8x16 1) : IVec S_ 1 :=
  let main_c_5 : IVec S_ 1 := constantI S_ 1 1#1
  let main_v17 : IVec S_ 1 := (fun x v => Host.reduce IntOp.andi x v reducesTo_S1x8x16_S_d0_1_2 h_S_) main_v16 main_c_5
  let main_v18 : IVec S_ 1 := andi main_v13 main_v17
  let main_v19 : FVec F S1x8x16 .f32 := Host.absf main_arg5
  let main_cst_6 : FVec F S_ .f32 := constant S_ .f32 0x7F800000#32
  let main_v20 : FVec F S1x8x16 .f32 := broadcastInDim S1x8x16 ![] bcast_S_S1x8x16 main_cst_6
  let main_v21 : IVec S1x8x16 1 := cmpf .olt main_v19 main_v20
  let main_c_7 : IVec S_ 1 := constantI S_ 1 1#1
  let main_v22 : IVec S_ 1 := (fun x v => Host.reduce IntOp.andi x v reducesTo_S1x8x16_S_d0_1_2 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128x128 .f32) (main_arg4 : FVec F S1x8x16 .f32) (main_arg5 : FVec F S1x8x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x8x16 .f32 := Host.absf main_arg4
  let main_cst_4 : FVec F S_ .f32 := constant S_ .f32 0x7F800000#32
  let main_v15 : FVec F S1x8x16 .f32 := broadcastInDim S1x8x16 ![] bcast_S_S1x8x16 main_cst_4
  let main_v16 : IVec S1x8x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x8x16 : Shape := ⟨3, ![1, 8, 16]⟩
abbrev S128 : Shape := ⟨1, ![128]⟩
abbrev S_ : Shape := ⟨0, ![]⟩
abbrev S128x1 : Shape := ⟨2, ![128, 1]⟩
abbrev S1x8 : Shape := ⟨2, ![1, 8]⟩
abbrev S128x8 : Shape := ⟨2, ![128, 8]⟩
abbrev S8x128 : Shape := ⟨2, ![8, 128]⟩
abbrev S100000x8 : Shape := ⟨2, ![100000, 8]⟩
abbrev S5000x128 : Shape := ⟨2, ![5000, 128]⟩
abbrev S5000x8 : Shape := ⟨2, ![5000, 8]⟩
abbrev S1x1600000 : Shape := ⟨2, ![1, 1600000]⟩
abbrev S1600000 : Shape := ⟨1, ![1600000]⟩
abbrev S1600000x1 : Shape := ⟨2, ![1600000, 1]⟩
abbrev S1600000x8 : Shape := ⟨2, ![1600000, 8]⟩
abbrev S1600000x128 : Shape := ⟨2, ![1600000, 128]⟩
abbrev S10000x128 : Shape := ⟨2, ![10000, 128]⟩
abbrev S10000x8 : Shape := ⟨2, ![10000, 8]⟩

abbrev nBuf : Space → Nat
  | .hbm => 112
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S1x8x16, .f32⟩
  | .hbm, ⟨5, _⟩ => ⟨S1x8x16, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x8, .i32⟩
  | .hbm, ⟨27, _⟩ => ⟨S128x8, .i32⟩
  | .hbm, ⟨28, _⟩ => ⟨S128x8, .i32⟩
  | .hbm, ⟨29, _⟩ => ⟨S128x8, .i1⟩
  | .hbm, ⟨30, _⟩ => ⟨S128x8, .f32⟩
  | .hbm, ⟨31, _⟩ => ⟨S128, .f32⟩
  | .hbm, ⟨32, _⟩ => ⟨S128, .f32⟩
  | .hbm, ⟨33, _⟩ => ⟨S128x1, .f32⟩
  | .hbm, ⟨34, _⟩ => ⟨S128x8, .f32⟩
  | .hbm, ⟨35, _⟩ => ⟨S128x8, .f32⟩
  | .hbm, ⟨36, _⟩ => ⟨S128x1, .f32⟩
  | .hbm, ⟨37, _⟩ => ⟨S128x8, .f32⟩
  | .hbm, ⟨38, _⟩ => ⟨S128x8, .f32⟩
  | .hbm, ⟨39, _⟩ => ⟨S8x128, .f32⟩
  | .hbm, ⟨40, _⟩ => ⟨S100000x128, .f32⟩
  | .hbm, ⟨41, _⟩ => ⟨S100000x128, .f32⟩
  | .hbm, ⟨42, _⟩ => ⟨S100000x8, .f32⟩
  | .hbm, ⟨43, _⟩ => ⟨S100000x8, .f32⟩
  | .hbm, ⟨44, _⟩ => ⟨S1x1600000, .i32⟩
  | .hbm, ⟨45, _⟩ => ⟨S1600000, .i32⟩
  | .hbm, ⟨46, _⟩ => ⟨S1x1600000, .i32⟩
  | .hbm, ⟨47, _⟩ => ⟨S1600000, .i32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x8, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x8, .f32⟩
  | .hbm, ⟨66, _⟩ => ⟨S1600000x8, .f32⟩
  | .hbm, ⟨67, _⟩ => ⟨S_, .f32⟩
  | .hbm, ⟨68, _⟩ => ⟨S_, .f32⟩
  | .hbm, ⟨69, _⟩ => ⟨S1600000x8, .f32⟩
  | .hbm, ⟨70, _⟩ => ⟨S1600000x8, .i1⟩
  | .hbm, ⟨71, _⟩ => ⟨S_, .f32⟩
  | .hbm, ⟨72, _⟩ => ⟨S1600000x8, .f32⟩
  | .hbm, ⟨73, _⟩ => ⟨S1600000x8, .f32⟩
  | .hbm, ⟨74, _⟩ => ⟨S1600000x8, .f32⟩
  | .hbm, ⟨75, _⟩ => ⟨S_, .f32⟩
  | .hbm, ⟨76, _⟩ => ⟨S_, .f32⟩
  | .hbm, ⟨77, _⟩ => ⟨S1600000x8, .f32⟩
  | .hbm, ⟨78, _⟩ => ⟨S1600000x8, .f32⟩
  | .hbm, ⟨79, _⟩ => ⟨S1600000x8, .f32⟩
  | .hbm, ⟨80, _⟩ => ⟨S_, .f32⟩
  | .hbm, ⟨81, _⟩ => ⟨S100000x8, .f32⟩
  | .hbm, ⟨82, _⟩ => ⟨S1600000x1, .i32⟩
  | .hbm, ⟨83, _⟩ => ⟨S100000x8, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x8, .f32⟩
  | .hbm, ⟨93, _⟩ => ⟨S_, .f32⟩
  | .hbm, ⟨94, _⟩ => ⟨S1600000x8, .f32⟩
  | .hbm, ⟨95, _⟩ => ⟨S1600000x8, .f32⟩
  | .hbm, ⟨96, _⟩ => ⟨S1600000x8, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x128, .f32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x8, .f32⟩
  | .local _ .vmem, ⟨5, _⟩ => ⟨S128x8, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S5000x8, .f32⟩
  | .local _ .vmem, ⟨14, _⟩ => ⟨S10000x128, .f32⟩
  | .local _ .vmem, ⟨15, _⟩ => ⟨S10000x128, .f32⟩
  | .local _ .vmem, ⟨16, _⟩ => ⟨S10000x8, .f32⟩
  | .local _ .vmem, ⟨17, _⟩ => ⟨S10000x8, .f32⟩
  | .local _ .vmem, ⟨18, _⟩ => ⟨S8x128, .f32⟩
  | .local _ .vmem, ⟨19, _⟩ => ⟨S10000x128, .f32⟩
  | .local _ .vmem, ⟨20, _⟩ => ⟨S10000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12_0 : Ref sig .tc := ⟨.hbm, 40, rfl⟩
abbrev main_v12_1 : Ref sig .tc := ⟨.hbm, 41, rfl⟩
abbrev main_v12_2 : Ref sig .tc := ⟨.hbm, 42, rfl⟩
abbrev main_v12_3 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_0 : Ref sig .tc := ⟨.hbm, 48, rfl⟩
abbrev main_v17 : Ref sig .tc := ⟨.hbm, 49, rfl⟩
abbrev main_v18 : Ref sig .tc := ⟨.hbm, 50, rfl⟩
abbrev main_c_1 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_2 : Ref sig .tc := ⟨.hbm, 57, rfl⟩
abbrev main_v24 : Ref sig .tc := ⟨.hbm, 58, rfl⟩
abbrev main_v25 : Ref sig .tc := ⟨.hbm, 59, rfl⟩
abbrev main_c_3 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v32 : Ref sig .tc := ⟨.hbm, 74, rfl⟩
abbrev main_cst_4 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_5 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_6 : Ref sig .tc := ⟨.hbm, 84, rfl⟩
abbrev main_v40 : Ref sig .tc := ⟨.hbm, 85, rfl⟩
abbrev main_v41 : Ref sig .tc := ⟨.hbm, 86, rfl⟩
abbrev main_c_7 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_8 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_c_9 : Ref sig .tc := ⟨.hbm, 97, rfl⟩
abbrev main_v50 : Ref sig .tc := ⟨.hbm, 98, rfl⟩
abbrev main_v51 : Ref sig .tc := ⟨.hbm, 99, rfl⟩
abbrev main_c_10 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_11 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  shapeCasts_S1x8x16_S128 : S1x8x16.ShapeCasts S128
  transposes_S128x8_S8x128_1_0 : S128x8.Transposes [1, 0] S8x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S5000x8_S5000x8_0_0 : ∀ a, (![0, 0] : Fin 2 → Nat) a + S5000x8.size a ≤ S5000x8.size a
  h_S5000x8 : 0 < S5000x8.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x8 : S_.BroadcastsInDim S1600000x8 (![] : Fin 0 → Fin S1600000x8.rank)
  reducesTo_S1600000x8_S_d0_1 : S1600000x8.ReducesTo [0, 1] S_
  h_S_ : 0 < S_.numel
  bcast_S_S100000x8 : S_.BroadcastsInDim S100000x8 (![] : Fin 0 → Fin S100000x8.rank)
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  gather_S100000x128_S1600000x1_S1600000x128_1_0_n_n_0_1_1128_wf : GatherDims.WF S100000x128 S1600000x1 S1600000x128 [1] [0] [] [0] [] 1 ![1, 128]
  dot_S10000x8_S8x128_S10000x128_1_0_0_1_n_n_wf : DotDims.WF S10000x8 S8x128 S10000x128 [1] [0] [0] [1] [] []
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S128x8.size a
  hwx0_3 : ∀ i : grid0.Coords, EltTy.bits .f32 = 32 ∨ (Rect.block (s := S128x8) S128x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .f32 = 32 ∨ (Rect.block (s := S128x8) S128x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x8.size a ≤ S100000x8.size a
  hwx0_7 : ∀ i : grid0.Coords, EltTy.bits .f32 = 32 ∨ (Rect.block (s := S100000x8) S5000x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x8.size a ≤ S100000x8.size a
  hwx0_8 : ∀ i : grid0.Coords, EltTy.bits .f32 = 32 ∨ (Rect.block (s := S100000x8) S5000x8.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1600000x128.size a
  hwx1_0 : ∀ i : grid1.Coords, EltTy.bits .f32 = 32 ∨ (Rect.block (s := S1600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x8.size a ≤ S1600000x8.size a
  hwx1_1 : ∀ i : grid1.Coords, EltTy.bits .f32 = 32 ∨ (Rect.block (s := S1600000x8) S10000x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x128.size a
  hwx1_2 : ∀ i : grid1.Coords, EltTy.bits .f32 = 32 ∨ (Rect.block (s := S8x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S1600000x128.size a
  hwx1_3 : ∀ i : grid1.Coords, EltTy.bits .f32 = 32 ∨ (Rect.block (s := S1600000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S10000x8_S8x128_S10000x128_1_0_0_1_n_n : DotDims S10000x8 S8x128 S10000x128 where
  lhsContracting := [1]
  rhsContracting := [0]
  lhsNonContracting := [0]
  rhsNonContracting := [1]
  lhsBatch := []
  rhsBatch := []
  wf := dot_S10000x8_S8x128_S10000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_2) S5000x8.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_3) S5000x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v56) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S10000x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x8x16 : Shape := ⟨3, ![1, 8, 16]⟩
abbrev S100000x8x16 : Shape := ⟨3, ![100000, 8, 16]⟩
abbrev S_ : Shape := ⟨0, ![]⟩
abbrev S100000x8 : Shape := ⟨2, ![100000, 8]⟩
abbrev S1x1600000 : Shape := ⟨2, ![1, 1600000]⟩
abbrev S1600000 : Shape := ⟨1, ![1600000]⟩
abbrev S1600000x1 : Shape := ⟨2, ![1600000, 1]⟩
abbrev S1600000x8 : Shape := ⟨2, ![1600000, 8]⟩
abbrev S1600000x8x16 : Shape := ⟨3, ![1600000, 8, 16]⟩
abbrev S1600000x8x1 : Shape := ⟨3, ![1600000, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S1x8x16, .f32⟩
  | .hbm, ⟨5, _⟩ => ⟨S1x8x16, .f32⟩
  | .hbm, ⟨6, _⟩ => ⟨S100000x128, .f32⟩
  | .hbm, ⟨7, _⟩ => ⟨S100000x8x16, .f32⟩
  | .hbm, ⟨8, _⟩ => ⟨S100000x8x16, .f32⟩
  | .hbm, ⟨9, _⟩ => ⟨S100000x8x16, .f32⟩
  | .hbm, ⟨10, _⟩ => ⟨S_, .f32⟩
  | .hbm, ⟨11, _⟩ => ⟨S100000x8, .f32⟩
  | .hbm, ⟨12, _⟩ => ⟨S100000x8x16, .f32⟩
  | .hbm, ⟨13, _⟩ => ⟨S100000x8x16, .f32⟩
  | .hbm, ⟨14, _⟩ => ⟨S_, .f32⟩
  | .hbm, ⟨15, _⟩ => ⟨S100000x8, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x8, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x8, .f32⟩
  | .hbm, ⟨38, _⟩ => ⟨S1600000x8, .f32⟩
  | .hbm, ⟨39, _⟩ => ⟨S_, .f32⟩
  | .hbm, ⟨40, _⟩ => ⟨S_, .f32⟩
  | .hbm, ⟨41, _⟩ => ⟨S1600000x8, .f32⟩
  | .hbm, ⟨42, _⟩ => ⟨S1600000x8, .i1⟩
  | .hbm, ⟨43, _⟩ => ⟨S_, .f32⟩
  | .hbm, ⟨44, _⟩ => ⟨S1600000x8, .f32⟩
  | .hbm, ⟨45, _⟩ => ⟨S1600000x8, .f32⟩
  | .hbm, ⟨46, _⟩ => ⟨S1600000x8, .f32⟩
  | .hbm, ⟨47, _⟩ => ⟨S_, .f32⟩
  | .hbm, ⟨48, _⟩ => ⟨S_, .f32⟩
  | .hbm, ⟨49, _⟩ => ⟨S1600000x8, .f32⟩
  | .hbm, ⟨50, _⟩ => ⟨S1600000x8, .f32⟩
  | .hbm, ⟨51, _⟩ => ⟨S1600000x8, .f32⟩
  | .hbm, ⟨52, _⟩ => ⟨S_, .f32⟩
  | .hbm, ⟨53, _⟩ => ⟨S100000x8, .f32⟩
  | .hbm, ⟨54, _⟩ => ⟨S1600000x1, .i32⟩
  | .hbm, ⟨55, _⟩ => ⟨S100000x8, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x8, .f32⟩
  | .hbm, ⟨65, _⟩ => ⟨S_, .f32⟩
  | .hbm, ⟨66, _⟩ => ⟨S1600000x8, .f32⟩
  | .hbm, ⟨67, _⟩ => ⟨S1600000x8, .f32⟩
  | .hbm, ⟨68, _⟩ => ⟨S1600000x8, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x8x16, .f32⟩
  | .hbm, ⟨78, _⟩ => ⟨S1600000x8x1, .f32⟩
  | .hbm, ⟨79, _⟩ => ⟨S1600000x8x16, .f32⟩
  | .hbm, ⟨80, _⟩ => ⟨S1600000x8x16, .f32⟩
  | .hbm, ⟨81, _⟩ => ⟨S_, .f32⟩
  | .hbm, ⟨82, _⟩ => ⟨S100000x8x16, .f32⟩
  | .hbm, ⟨83, _⟩ => ⟨S1600000x1, .i32⟩
  | .hbm, ⟨84, _⟩ => ⟨S100000x8x16, .f32⟩
  | .hbm, ⟨85, _⟩ => ⟨S100000x128, .f32⟩
  | .hbm, ⟨86, _⟩ => ⟨S100000x8x16, .f32⟩
  | .hbm, ⟨87, _⟩ => ⟨S100000x8x16, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .i1⟩
  | .hbm, ⟨92, _⟩ => ⟨S_, .f32⟩
  | .hbm, ⟨93, _⟩ => ⟨S100000x128, .f32⟩
  | .hbm, ⟨94, _⟩ => ⟨S100000x128, .i1⟩
  | .hbm, ⟨95, _⟩ => ⟨S_, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_cst_1 : Ref sig .tc := ⟨.hbm, 95, rfl⟩
abbrev main_call1_call0_v0 : Ref sig .tc := ⟨.hbm, 96, rfl⟩
abbrev main_call1_call0_v1 : Ref sig .tc := ⟨.hbm, 97, rfl⟩
abbrev main_call1_v4 : Ref sig .tc := ⟨.hbm, 98, rfl⟩
abbrev main_call1_v5 : Ref sig .tc := ⟨.hbm, 99, rfl⟩
abbrev main_call1_cst_2 : Ref sig .tc := ⟨.hbm, 100, rfl⟩
abbrev main_call1_v6 : Ref sig .tc := ⟨.hbm, 101, rfl⟩
abbrev main_call1_v7 : Ref sig .tc := ⟨.hbm, 102, rfl⟩
abbrev main_v62 : Ref sig .tc := ⟨.hbm, 103, rfl⟩

abbrev nD : Nat := 1
abbrev τ : Topo := Topo.v7x

variable {F : FTy → Type} [FloatOps F]

class Facts₀ : Prop where
  shapeCasts_S100000x128_S100000x8x16 : S100000x128.ShapeCasts S100000x8x16
  bcast_S1x8x16_S100000x8x16_0_1_2 : S1x8x16.BroadcastsInDim S100000x8x16 (![0, 1, 2] : Fin 3 → Fin S100000x8x16.rank)
  reducesTo_S100000x8x16_S100000x8_d2 : S100000x8x16.ReducesTo [2] S100000x8
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x8 : S_.BroadcastsInDim S1600000x8 (![] : Fin 0 → Fin S1600000x8.rank)
  reducesTo_S1600000x8_S_d0_1 : S1600000x8.ReducesTo [0, 1] S_
  bcast_S_S100000x8 : S_.BroadcastsInDim S100000x8 (![] : Fin 0 → Fin S100000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S100000x8x16 : S_.BroadcastsInDim S100000x8x16 (![] : Fin 0 → Fin S100000x8x16.rank)
  shapeCasts_S100000x8x16_S100000x128 : S100000x8x16.ShapeCasts S100000x128
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  gather_S100000x8x16_S1600000x1_S1600000x8x16_12_0_n_n_0_1_1816_wf : GatherDims.WF S100000x8x16 S1600000x1 S1600000x8x16 [1, 2] [0] [] [0] [] 1 ![1, 8, 16]
  scatter_S100000x8x16_S1600000x1_S1600000x8x16_12_0_0_1_wf : ScatterDims.WF S100000x8x16 S1600000x1 S1600000x8x16 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def gather_S100000x8x16_S1600000x1_S1600000x8x16_12_0_n_n_0_1_1816 : GatherDims S100000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S100000x8x16_S1600000x1_S1600000x8x16_12_0_n_n_0_1_1816_wf
def scatter_S100000x8x16_S1600000x1_S1600000x8x16_12_0_0_1 : ScatterDims S100000x8x16 S1600000x1 S1600000x8x16 where
  updateWindowDims := [1, 2]
  insertedWindowDims := [0]
  scatterDimsToOperandDims := [0]
  indexVectorDim := 1
  wf := scatter_S100000x8x16_S1600000x1_S1600000x8x16_12_0_0_1_wf

class Facts : Prop extends Facts₀ where

variable [Facts]
-- ==== Proof.Chain.lean ====
/-
  The stretches of host operations that the kernel's program and the reference share, each written once as a
  function of the arrays it starts from, generic in the side conditions the operations cite (propositions) and in
  the gather and scatter dimension records. Edge e runs from node src e to node tgt e (rows 0 and 1 of the 2-by-E
  index array); an index read as a start index is first wrapped (a negative one has N added).

  attOf: the attention weights [E, 8] from the per-node head scores [N, 8]: the leaky rectifier of
  score_src (src e) + score_tgt (tgt e), minus its maximum over all edges and heads, exponentiated, and divided by
  (the sum of those exponentials over the edges with the same target, read back at tgt e, plus 1e-16).
-/
import Idealize.ShloMosaic.PureOps.Ideal
import Idealize.ShloMosaic.Lib.ValueIdx

noncomputable section

namespace Cert.Chain

open Idealize.ShloMosaic

abbrev S0 : Shape := ⟨0, ![]⟩
abbrev S2xE : Shape := ⟨2, ![2, 1600000]⟩
abbrev S1xE : Shape := ⟨2, ![1, 1600000]⟩
abbrev SE : Shape := ⟨1, ![1600000]⟩
abbrev SEx1 : Shape := ⟨2, ![1600000, 1]⟩
abbrev SEx8 : Shape := ⟨2, ![1600000, 8]⟩
abbrev SNx8 : Shape := ⟨2, ![100000, 8]⟩
abbrev SNx128 : Shape := ⟨2, ![100000, 128]⟩
abbrev SEx128 : Shape := ⟨2, ![1600000, 128]⟩
abbrev SNx8x16 : Shape := ⟨3, ![100000, 8, 16]⟩
abbrev SEx8x16 : Shape := ⟨3, ![1600000, 8, 16]⟩
abbrev SEx8x1 : Shape := ⟨3, ![1600000, 8, 1]⟩
abbrev S1x8x16 : Shape := ⟨3, ![1, 8, 16]⟩
abbrev S128x128 : Shape := ⟨2, ![128, 128]⟩
abbrev S8x128 : Shape := ⟨2, ![8, 128]⟩
abbrev S128x8 : Shape := ⟨2, ![128, 8]⟩

/-- The side conditions the shared index handling cites. -/
structure IdxFacts : Prop where
  sl0 : S2xE.Slices ![0, 0] S1xE
  sl1 : S2xE.Slices ![1, 0] S1xE
  sc : S1xE.ShapeCasts SE
  b0E : S0.BroadcastsInDim SE (![] : Fin 0 → Fin SE.rank)
  bEE1 : SE.BroadcastsInDim SEx1 (![0] : Fin 1 → Fin SEx1.rank)

section Idx
variable (hI : IdxFacts)

/-- Row 0 of the index array: the edges' sources. -/
def srcRow (ei : IVec S2xE 32) : IVec SE 32 := shapeCast SE (extractStridedSlice S1xE ![0, 0] ei hI.sl0) hI.sc
/-- Row 1 of the index array: the edges' targets. -/
def tgtRow (ei : IVec S2xE 32) : IVec SE 32 := shapeCast SE (extractStridedSlice S1xE ![1, 0] ei hI.sl1) hI.sc
/-- A row of indices as a column of start indices, a negative index first wrapped by N = 100000. -/
def wrapCol (r : IVec SE 32) : IVec SEx1 32 :=
  broadcastInDim SEx1 ![0] hI.bEE1
    (select (cmpi .slt r (broadcastInDim SE ![] hI.b0E (constantI S0 32 0#32)))
      (addi r (broadcastInDim SE ![] hI.b0E (constantI S0 32 100000#32))) r)
/-- A row of indices as a column of start indices, as it is. -/
def col (r : IVec SE 32) : IVec SEx1 32 := broadcastInDim SEx1 ![0] hI.bEE1 r
end Idx

/-- The side conditions the attention chain cites. -/
structure AttFacts : Prop where
  b0E8 : S0.BroadcastsInDim SEx8 (![] : Fin 0 → Fin SEx8.rank)
  b0N8 : S0.BroadcastsInDim SNx8 (![] : Fin 0 → Fin SNx8.rank)
  red : SEx8.ReducesTo [0, 1] S0
  h0 : 0 < S0.numel

section Att
variable (hI : IdxFacts) (hA : AttFacts) (g8 : GatherDims SNx8 SEx1 SEx8) (sc8 : ScatterDims SNx8 SEx1 SEx8)

/-- The leaky rectifier with slope 0.2 (the f32 nearest 0.2): z where z ≥ 0, slope * z elsewhere. -/
def leaky (z : FVec Ideal SEx8 .f32) : FVec Ideal SEx8 .f32 :=
  select (cmpf .oge z (broadcastInDim SEx8 ![] hA.b0E8 (constant S0 .f32 0x00000000#32))) z
    (mulf (broadcastInDim SEx8 ![] hA.b0E8 (id (constant S0 .f32 0x3E4CCCCD#32))) z)

/-- The rectified edge scores [E, 8]. -/
def edgeScore (ss st : FVec Ideal SNx8 .f32) (ei : IVec S2xE 32) : FVec Ideal SEx8 .f32 :=
  leaky hA (addf (Host.gather g8 ss (wrapCol hI (srcRow hI ei))) (Host.gather g8 st (wrapCol hI (tgtRow hI ei))))

/-- Their exponentials after the global maximum is taken off. -/
def edgeExp (ss st : FVec Ideal SNx8 .f32) (ei : IVec S2xE 32) : FVec Ideal SEx8 .f32 :=
  Host.exp (subf (edgeScore hI hA g8 ss st ei)
    (broadcastInDim SEx8 ![] hA.b0E8
      (Host.reduce FloatOps.maximumf (edgeScore hI hA g8 ss st ei) (constant S0 .f32 0xFF800000#32) hA.red hA.h0)))

/-- The attention weights [E, 8]. -/
def attOf (ss st : FVec Ideal SNx8 .f32) (ei : IVec S2xE 32) : FVec Ideal SEx8 .f32 :=
  Host.divf (edgeExp hI hA g8 ss st ei)
    (addf (Host.gather g8
        (Host.scatterAdd sc8 (broadcastInDim SNx8 ![] hA.b0N8 (constant S0 .f32 0x00000000#32)) (col hI (tgtRow hI ei))
          (edgeExp hI hA g8 ss st ei))
        (wrapCol hI (tgtRow hI ei)))
      (broadcastInDim SEx8 ![] hA.b0E8 (constant S0 .f32 0x24E69595#32)))
end Att

/-! ## The kernel program's two other host stretches -/

/-- The projections' rows of the edges' sources [E, 128]. -/
def gatherP (hI : IdxFacts) (g128 : GatherDims SNx128 SEx1 SEx128) (p : FVec Ideal SNx128 .f32) (ei : IVec S2xE 32) :
    FVec Ideal SEx128 .f32 :=
  Host.gather g128 p (wrapCol hI (srcRow hI ei))

/-- The messages summed into their targets' rows [N, 128], from zero. -/
def aggOf (hI : IdxFacts) (b0N128 : S0.BroadcastsInDim SNx128 (![] : Fin 0 → Fin SNx128.rank))
    (sc128 : ScatterDims SNx128 SEx1 SEx128) (msg : FVec Ideal SEx128 .f32) (ei : IVec S2xE 32) : FVec Ideal SNx128 .f32 :=
  Host.scatterAdd sc128 (broadcastInDim SNx128 ![] b0N128 (constant S0 .f32 0x00000000#32)) (col hI (tgtRow hI ei)) msg

/-! ## The reference's own stretches -/

/-- The side conditions the reference's own stretches cite. -/
structure RefFacts : Prop where
  c23 : SNx128.ShapeCasts SNx8x16
  c32 : SNx8x16.ShapeCasts SNx128
  bA : S1x8x16.BroadcastsInDim SNx8x16 (![0, 1, 2] : Fin 3 → Fin SNx8x16.rank)
  redH : SNx8x16.ReducesTo [2] SNx8
  h0 : 0 < S0.numel
  bE8E81 : SEx8.BroadcastsInDim SEx8x1 (![0, 1] : Fin 2 → Fin SEx8x1.rank)
  bE81E816 : SEx8x1.BroadcastsInDim SEx8x16 (![0, 1, 2] : Fin 3 → Fin SEx8x16.rank)
  b0N816 : S0.BroadcastsInDim SNx8x16 (![] : Fin 0 → Fin SNx8x16.rank)
  b0N128 : S0.BroadcastsInDim SNx128 (![] : Fin 0 → Fin SNx128.rank)

section Ref
variable (hI : IdxFacts) (hR : RefFacts)

/-- A projection as the host's matrix product. -/
def projR (d : DotDims SNx128 S128x128 SNx128) (x : FVec Ideal SNx128 .f32) (w : FVec Ideal S128x128 .f32) : FVec Ideal SNx128 .f32 :=
  Host.dotGeneral d none x w

/-- The head scores [N, 8]: the projection in heads of 16 lanes times the lane weights, summed over a head's lanes. -/
def scoreR (p : FVec Ideal SNx128 .f32) (a : FVec Ideal S1x8x16 .f32) : FVec Ideal SNx8 .f32 :=
  Host.reduceAdd (mulf (shapeCast SNx8x16 p hR.c23) (broadcastInDim SNx8x16 ![0, 1, 2] hR.bA a))
    (constant S0 .f32 0x00000000#32) hR.redH hR.h0

/-- The exponential linear unit as the reference spells it. -/
def eluR (z : FVec Ideal SNx128 .f32) : FVec Ideal SNx128 .f32 :=
  select (cmpf .ogt z (broadcastInDim SNx128 ![] hR.b0N128 (constant S0 .f32 0x00000000#32))) z
    (mulf (broadcastInDim SNx128 ![] hR.b0N128 (constant S0 .f32 0x3F800000#32))
      (Host.expm1 (select (cmpf .ogt z (broadcastInDim SNx128 ![] hR.b0N128 (constant S0 .f32 0x00000000#32)))
        (broadcastInDim SNx128 ![] hR.b0N128 (id (constant S0 .f32 0x00000000#32))) z)))

/-- The reference's last stretch: the sources' projections in heads times the attention weight of the head, summed into
    the targets' rows from zero, plus the skip projection, flattened, through the exponential linear unit. -/
def tailR (g3 : GatherDims SNx8x16 SEx1 SEx8x16) (sc3 : ScatterDims SNx8x16 SEx1 SEx8x16)
    (p : FVec Ideal SNx128 .f32) (att : FVec Ideal SEx8 .f32) (ei : IVec S2xE 32) (sk : FVec Ideal SNx128 .f32) :
    FVec Ideal SNx128 .f32 :=
  eluR hR (shapeCast SNx128
    (addf
      (Host.scatterAdd sc3 (broadcastInDim SNx8x16 ![] hR.b0N816 (constant S0 .f32 0x00000000#32)) (col hI (tgtRow hI ei))
        (mulf (Host.gather g3 (shapeCast SNx8x16 p hR.c23) (wrapCol hI (srcRow hI ei)))
          (broadcastInDim SEx8x16 ![0, 1, 2] hR.bE81E816 (broadcastInDim SEx8x1 ![0, 1] hR.bE8E81 att))))
      (shapeCast SNx8x16 sk hR.c23))
    hR.c32)
end Ref

end Cert.Chain

end
-- ==== Proof.Spec.lean ====
/-
  The mathematics both programs compute, as functions of plain arrays over the extended reals.

  A graph-attention layer over N = 100000 nodes with 128 features in 8 heads of 16 lanes, and E = 1600000 edges:
  the node projections are matrix products; a head's attention score of a node is the sum over the head's 16 lanes
  of the projection times a per-lane weight; the kernel takes that head sum as a 128-by-8 matrix product with a
  matrix that is the weight on the lanes of the head and zero elsewhere, and spreads a per-head edge weight over a
  head's lanes by an 8-by-128 product with the zero-one matrix of "lane l belongs to head h".
-/
import Idealize.ShloMosaic.PureOps.Ideal
import Idealize.ShloMosaic.Lib.ValueIdx

noncomputable section

open scoped BigOperators

namespace Cert.Spec

open Idealize.ShloMosaic Idealize.ShloMosaic.ValueIdx

/-- The product of an M-by-K array with a K-by-N array: at (r, q) the sum over k of x (r, k) * w (k, q). -/
def mm (M K N : Nat) (x : (⟨2, ![M, K]⟩ : Shape).Idx → EReal) (w : (⟨2, ![K, N]⟩ : Shape).Idx → EReal) :
    (⟨2, ![M, N]⟩ : Shape).Idx → EReal :=
  fun j => ∑ k : Fin K, x (ix2 (n0 := M) (n1 := K) ⟨(j 0).val, (j 0).isLt⟩ k) * w (ix2 (n0 := K) (n1 := N) k ⟨(j 1).val, (j 1).isLt⟩)

/-- Lane l belongs to head h: one if l / 16 = h, zero otherwise. -/
def oh (l h : Nat) : EReal := if l / 16 = h then 1 else 0

/-- The 128-by-8 matrix of a head's lane weights: at (l, h) the weight of lane l (entry (0, l / 16, l % 16) of the
    1-by-8-by-16 weight array, which is entry l of its row-major flattening) if lane l belongs to head h, else zero. -/
def aexp (a : (⟨3, ![1, 8, 16]⟩ : Shape).Idx → EReal) : (⟨2, ![128, 8]⟩ : Shape).Idx → EReal :=
  fun i => oh (i 0).val (i 1).val
    * a (ix3 (n0 := 1) (n1 := 8) (n2 := 16) 0 ⟨(i 0).val / 16, Nat.div_lt_of_lt_mul (i 0).isLt⟩ ⟨(i 0).val % 16, Nat.mod_lt _ (by decide)⟩)

/-- The 8-by-128 zero-one matrix: at (h, l) one if lane l belongs to head h. -/
def ohT : (⟨2, ![8, 128]⟩ : Shape).Idx → EReal := fun i => oh (i 1).val (i 0).val

/-- The exponential linear unit as the kernel spells it: v where v is positive, exp v - 1 elsewhere. -/
def eluK (v : EReal) : EReal := if 0 < v then v else Ideal.exp v - 1

end Cert.Spec

end
-- ==== Proof.KFacts.lean ====
/-
  The kernel program's side conditions packaged for the shared chains, and the kernel's result as one function of
  the argument arrays: the projections P = x · W_proj and SK = x · W_skip; the head scores P · (lane weights on the
  head's lanes); the attention weights; each edge's message, the source's projection row times its head's weight
  (spread over the head's lanes by the zero-one matrix); the messages summed into their targets; plus SK, through
  the exponential linear unit.
-/
import proofs.«155503_j57080115364429_1_alg».proof.Proof.Gen.KernelIdeal
import proofs.«155503_j57080115364429_1_alg».proof.Proof.Chain
import proofs.«155503_j57080115364429_1_alg».proof.Proof.Spec

noncomputable section

open scoped BigOperators

namespace Cert.KernelIdeal.KF

open Idealize.ShloMosaic Cert.KernelIdeal Cert.KernelIdeal.Facts₀ Cert.Chain Cert.Spec

theorem hI : IdxFacts := ⟨slices_S2x1600000_S1x1600000_0_0, slices_S2x1600000_S1x1600000_1_0, shapeCasts_S1x1600000_S1600000,
  bcast_S_S1600000, bcast_S1600000_S1600000x1_0⟩
theorem hA : AttFacts := ⟨bcast_S_S1600000x8, bcast_S_S100000x8, reducesTo_S1600000x8_S_d0_1, h_S_⟩

abbrev g8 : GatherDims SNx8 SEx1 SEx8 := gather_S100000x8_S1600000x1_S1600000x8_1_0_n_n_0_1_18
abbrev sc8 : ScatterDims SNx8 SEx1 SEx8 := scatter_S100000x8_S1600000x1_S1600000x8_1_0_0_1
abbrev g128 : GatherDims SNx128 SEx1 SEx128 := gather_S100000x128_S1600000x1_S1600000x128_1_0_n_n_0_1_1128
abbrev sc128 : ScatterDims SNx128 SEx1 SEx128 := scatter_S100000x128_S1600000x1_S1600000x128_1_0_0_1

/-- The projection x · w. -/
abbrev proj (x : FVec Ideal SNx128 .f32) (w : FVec Ideal S128x128 .f32) : FVec Ideal SNx128 .f32 := mm 100000 128 128 x w
/-- The head scores of the projection p under the lane weights a. -/
abbrev score (p : FVec Ideal SNx128 .f32) (a : FVec Ideal S1x8x16 .f32) : FVec Ideal SNx8 .f32 := mm 100000 128 8 p (aexp a)
/-- A message array [E, 128]: each gathered projection entry times its head's attention weight, the weights [E, 8]
    spread over the lanes by the product with an 8-by-128 array. -/
def msgOf (pg : FVec Ideal SEx128 .f32) (att : FVec Ideal SEx8 .f32) (o : FVec Ideal S8x128 .f32) : FVec Ideal SEx128 .f32 :=
  fun i => pg i * mm 1600000 8 128 att o i
/-- The exponential linear unit of aggregate + skip. -/
def finOf (agg sk : FVec Ideal SNx128 .f32) : FVec Ideal SNx128 .f32 := fun i => eluK (agg i + sk i)
/-- The messages [E, 128] from the projection and the attention weights. -/
def msgK (p : FVec Ideal SNx128 .f32) (att : FVec Ideal SEx8 .f32) (ei : IVec S2xE 32) : FVec Ideal SEx128 .f32 :=
  msgOf (gatherP hI g128 p ei) att ohT
/-- The kernel's last two stages from the projection, the attention weights and the skip projection. -/
def tailK (p : FVec Ideal SNx128 .f32) (att : FVec Ideal SEx8 .f32) (ei : IVec S2xE 32) (sk : FVec Ideal SNx128 .f32) :
    FVec Ideal SNx128 .f32 :=
  finOf (aggOf hI bcast_S_S100000x128 sc128 (msgK p att ei) ei) sk
/-- The kernel's result as a function of the argument arrays. -/
def outK (x : FVec Ideal SNx128 .f32) (ei : IVec S2xE 32) (wp ws : FVec Ideal S128x128 .f32) (aS aT : FVec Ideal S1x8x16 .f32) :
    FVec Ideal SNx128 .f32 :=
  tailK (proj x wp) (attOf hI hA g8 sc8 (score (proj x wp) aS) (score (proj x wp) aT) ei) ei (proj x ws)

end Cert.KernelIdeal.KF

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.KReg0.lean ====
/-
  Region 0 (the projection kernel, 20 grid points of 5000 rows): what each of its four output arrays holds when
  the region is left, as one function of the arrays it was entered with.
-/
import proofs.«155503_j57080115364429_1_alg».proof.Proof.Gen.KernelIdeal.Frame
import proofs.«155503_j57080115364429_1_alg».proof.Proof.KFacts
import proofs.«155503_j57080115364429_1_alg».proof.Proof.LibPlainDot
import Idealize.ShloMosaic.Lib.Pipeline.Value

set_option maxRecDepth 16384
noncomputable section

open scoped BigOperators

namespace Cert.KernelIdeal.KReg0

open Idealize.ShloMosaic Idealize.ShloMosaic.TcCoe Idealize.SL.Sem Idealize.ShloMosaic.ValueIdx
open Cert.KernelIdeal Cert.KernelIdeal.Gen Cert.Chain Cert.Spec

variable (V : (c : Dev nD) → (b : Ref sig .tc) → Buf (Elt Ideal) ((c : Thread nD τ).loc b))

/-- The zero offsets of a load or store of a whole buffer, however spelt. -/
theorem hz : (![0, 0] : Fin 2 → Nat) = fun _ => 0 := funext fun a => by fin_cases a <;> rfl

/-- The kernel's two dimension records are the plain ones: contract the left operand's last axis with the right
    operand's first, no batch axis. -/
theorem dims_proj : dot_S5000x128_S128x128_S5000x128_1_0_0_1_n_n = DotDims.plain 5000 128 128 := rfl
theorem dims_score : dot_S5000x128_S128x8_S5000x8_1_0_0_1_n_n = DotDims.plain 5000 128 8 := rfl

/-- The printed index maps, decided over the 20 grid points: the x block and the four output blocks of point t are
    block t along the rows and block 0 along the columns; the four weight windows are always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The first product of the body, at an index: the sum over the 128 contracted lanes. -/
theorem pay2_apply (x0 : Vec Ideal S5000x128 .f32) (x1 : Vec Ideal S128x128 .f32) (j : S5000x128.Idx) :
    k0_pay2 x0 x1 j = ∑ k : Fin 128, x0 (ix2 (n0 := 5000) (n1 := 128) ⟨(j 0).val, (j 0).isLt⟩ k) * x1 (ix2 (n0 := 128) (n1 := 128) k ⟨(j 1).val, (j 1).isLt⟩) := by
  unfold k0_pay2 k0_pay1
  rw [dims_proj]
  exact PlainDot.matmul_zero_apply 5000 128 128 _ _ j

/-- Entry y of point t's block of x is entry (5000 t + y 0, y 1) of x. -/
theorem x_blk (c : Dev nD) (t : Fin cfg0.N) (y : S5000x128.Idx) (i : S100000x128.Idx)
    (h0 : (i 0).val = t.val * 5000 + (y 0).val) (h1 : (i 1).val = (y 1).val) :
    iblk0 V c 0 t y = V c main_arg0 i := by
  show V c main_arg0 (((cfg0.win 0).blk t).view.emb y) = V c main_arg0 i
  obtain ⟨e0, e1, -⟩ := idx_facts t
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The projection weights' window is the whole array at every point. -/
theorem wp_blk (c : Dev nD) (t : Fin cfg0.N) (y : S128x128.Idx) (i : S128x128.Idx)
    (h0 : (i 0).val = (y 0).val) (h1 : (i 1).val = (y 1).val) :
    iblk0 V c 1 t y = V c main_arg2 i := by
  show V c main_arg2 (((cfg0.win 1).blk t).view.emb y) = V c main_arg2 i
  obtain ⟨-, -, e0, e1, -⟩ := idx_facts t
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The weights' other whole windows: the skip weights, and the two lane-weight matrices. -/
theorem ws_blk (c : Dev nD) (t : Fin cfg0.N) (y : S128x128.Idx) (i : S128x128.Idx)
    (h0 : (i 0).val = (y 0).val) (h1 : (i 1).val = (y 1).val) :
    iblk0 V c 2 t y = V c main_arg3 i := by
  show V c main_arg3 (((cfg0.win 2).blk t).view.emb y) = V c main_arg3 i
  obtain ⟨-, -, -, -, e0, e1, -⟩ := idx_facts t
  refine congrArg _ (funext fun a => Fin.ext ?_)
  match a with
  | ⟨0, _⟩ => show win0_2.index t (0 : Fin 2) * 128 + 1 * (y 0).val = (i 0).val; omega
  | ⟨1, _⟩ => show win0_2.index t (1 : Fin 2) * 128 + 1 * (y 1).val = (i 1).val; omega

theorem asrc_blk (c : Dev nD) (t : Fin cfg0.N) (y : S128x8.Idx) (i : S128x8.Idx)
    (h0 : (i 0).val = (y 0).val) (h1 : (i 1).val = (y 1).val) :
    iblk0 V c 3 t y = V c main_v7 i := by
  show V c main_v7 (((cfg0.win 3).blk t).view.emb y) = V c main_v7 i
  obtain ⟨-, -, -, -, -, -, e0, e1, -⟩ := idx_facts t
  refine congrArg _ (funext fun a => Fin.ext ?_)
  match a with
  | ⟨0, _⟩ => show win0_3.index t (0 : Fin 2) * 128 + 1 * (y 0).val = (i 0).val; omega
  | ⟨1, _⟩ => show win0_3.index t (1 : Fin 2) * 8 + 1 * (y 1).val = (i 1).val; omega

theorem atgt_blk (c : Dev nD) (t : Fin cfg0.N) (y : S128x8.Idx) (i : S128x8.Idx)
    (h0 : (i 0).val = (y 0).val) (h1 : (i 1).val = (y 1).val) :
    iblk0 V c 4 t y = V c main_v10 i := by
  show V c main_v10 (((cfg0.win 4).blk t).view.emb y) = V c main_v10 i
  obtain ⟨-, -, -, -, -, -, -, -, e0, e1, -⟩ := idx_facts t
  refine congrArg _ (funext fun a => Fin.ext ?_)
  match a with
  | ⟨0, _⟩ => show win0_4.index t (0 : Fin 2) * 128 + 1 * (y 0).val = (i 0).val; omega
  | ⟨1, _⟩ => show win0_4.index t (1 : Fin 2) * 8 + 1 * (y 1).val = (i 1).val; omega

/-- The body's second product, the same with the other weights. -/
theorem pay3_apply (x0 : Vec Ideal S5000x128 .f32) (x2 : Vec Ideal S128x128 .f32) (j : S5000x128.Idx) :
    k0_pay3 x0 x2 j = ∑ k : Fin 128, x0 (ix2 (n0 := 5000) (n1 := 128) ⟨(j 0).val, (j 0).isLt⟩ k) * x2 (ix2 (n0 := 128) (n1 := 128) k ⟨(j 1).val, (j 1).isLt⟩) := by
  unfold k0_pay3 k0_pay1
  rw [dims_proj]
  exact PlainDot.matmul_zero_apply 5000 128 128 _ _ j

/-- The body's score products: the first product times a lane-weight matrix, the sum over the 128 lanes. -/
theorem pay4_apply (x0 : Vec Ideal S5000x128 .f32) (x1 : Vec Ideal S128x128 .f32) (x3 : Vec Ideal S128x8 .f32) (j : S5000x8.Idx) :
    k0_pay4 x0 x1 x3 j = ∑ l : Fin 128, k0_pay2 x0 x1 (ix2 (n0 := 5000) (n1 := 128) ⟨(j 0).val, (j 0).isLt⟩ l) * x3 (ix2 (n0 := 128) (n1 := 8) l ⟨(j 1).val, (j 1).isLt⟩) := by
  unfold k0_pay4
  rw [dims_score, shapeCast_self]
  exact PlainDot.matmul_zero_apply 5000 128 8 _ _ j

theorem pay5_apply (x0 : Vec Ideal S5000x128 .f32) (x1 : Vec Ideal S128x128 .f32) (x4 : Vec Ideal S128x8 .f32) (j : S5000x8.Idx) :
    k0_pay5 x0 x1 x4 j = ∑ l : Fin 128, k0_pay2 x0 x1 (ix2 (n0 := 5000) (n1 := 128) ⟨(j 0).val, (j 0).isLt⟩ l) * x4 (ix2 (n0 := 128) (n1 := 8) l ⟨(j 1).val, (j 1).isLt⟩) := by
  unfold k0_pay5
  rw [dims_score, shapeCast_self]
  exact PlainDot.matmul_zero_apply 5000 128 8 _ _ j

/-- Point t's first product at y is the projection x · W_proj at (5000 t + y 0, y 1): the contraction runs over whole
    rows of x and whole columns of the weights. -/
theorem proj_blk (c : Dev nD) (t : Fin cfg0.N) (y : S5000x128.Idx) (i : S100000x128.Idx)
    (h0 : (i 0).val = t.val * 5000 + (y 0).val) (h1 : (i 1).val = (y 1).val) :
    k0_pay2 (iblk0 V c 0 t) (iblk0 V c 1 t) y = KF.proj (V c main_arg0) (V c main_arg2) i := by
  show _ = mm 100000 128 128 (V c main_arg0) (V c main_arg2) i
  rw [pay2_apply]
  unfold mm
  refine Finset.sum_congr rfl fun k _ => ?_
  exact congrArg₂ (· * ·) (x_blk V c t _ _ h0 rfl) (wp_blk V c t _ _ rfl h1)

/-- The same for the skip weights. -/
theorem skip_blk (c : Dev nD) (t : Fin cfg0.N) (y : S5000x128.Idx) (i : S100000x128.Idx)
    (h0 : (i 0).val = t.val * 5000 + (y 0).val) (h1 : (i 1).val = (y 1).val) :
    k0_pay3 (iblk0 V c 0 t) (iblk0 V c 2 t) y = KF.proj (V c main_arg0) (V c main_arg3) i := by
  show _ = mm 100000 128 128 (V c main_arg0) (V c main_arg3) i
  rw [pay3_apply]
  unfold mm
  refine Finset.sum_congr rfl fun k _ => ?_
  exact congrArg₂ (· * ·) (x_blk V c t _ _ h0 rfl) (ws_blk V c t _ _ rfl h1)

/-! ## Window 5: x · W_proj -/

/-- What point t writes back is block t of x · W_proj. -/
theorem flushed5_eq (c : Dev nD) (t : Fin cfg0.N) :
    (dat0 V c).flushed 5 t = ((cfg0.win 5).blk t).view.read (Elt Ideal) (KF.proj (V c main_arg0) (V c main_arg2)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz]
  funext j
  show k0_pay2 (iblk0 V c 0 t) (iblk0 V c 1 t) j = KF.proj (V c main_arg0) (V c main_arg2) (((cfg0.win 5).blk t).view.emb j)
  obtain ⟨-, -, -, -, -, -, -, -, -, -, e0, e1, -⟩ := idx_facts t
  refine proj_blk V c t j _ ?_ ?_
  · show win0_5.index t (0 : Fin 2) * 5000 + 1 * (j 0).val = _; omega
  · show win0_5.index t (1 : Fin 2) * 128 + 1 * (j 1).val = _; omega

/-- An index is in point t's block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v12_0).slice (win0_5.rect t)).set ↔ _
  rw [View.set_slice_whole, Rect.mem_set_unit]
  exact Iff.rfl

/-- Row r is in the block of point r / 5000: the 20 blocks of 5000 rows cover the 100000 rows. -/
theorem cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < 20 := by omega
  refine ⟨⟨(i 0).val / 5000, ht⟩, flush0_5 _, ?_⟩
  rw [mem_blk5]
  obtain ⟨-, -, -, -, -, -, -, -, -, -, e0, e1, -⟩ := idx_facts ⟨(i 0).val / 5000, ht⟩
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; rw [e0]; show (i 0).val / 5000 * 5000 ≤ _ ∧ _ < (i 0).val / 5000 * 5000 + 5000; omega
  | ⟨1, _⟩ => show win0_5.index ⟨(i 0).val / 5000, ht⟩ (1 : Fin 2) * 128 ≤ (i 1).val ∧ (i 1).val < win0_5.index ⟨(i 0).val / 5000, ht⟩ (1 : Fin 2) * 128 + 128; omega

/-- Output window 5: the projection x · W_proj. -/
theorem arr_p (c : Dev nD) : (dat0 V c).arrAt 5 cfg0.N = KF.proj (V c main_arg0) (V c main_arg2) :=
  (dat0 V c).arrAt_eq_of_cover 5 _ (fun t _ => flushed5_eq V c t) cover5

/-! ## Window 6: x · W_skip -/

theorem flushed6_eq (c : Dev nD) (t : Fin cfg0.N) :
    (dat0 V c).flushed 6 t = ((cfg0.win 6).blk t).view.read (Elt Ideal) (KF.proj (V c main_arg0) (V c main_arg3)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz]
  funext j
  show k0_pay3 (iblk0 V c 0 t) (iblk0 V c 2 t) j = KF.proj (V c main_arg0) (V c main_arg3) (((cfg0.win 6).blk t).view.emb j)
  obtain ⟨-, -, -, -, -, -, -, -, -, -, -, -, e0, e1, -⟩ := idx_facts t
  refine skip_blk V c t j _ ?_ ?_
  · show win0_6.index t (0 : Fin 2) * 5000 + 1 * (j 0).val = _; omega
  · show win0_6.index t (1 : Fin 2) * 128 + 1 * (j 1).val = _; omega

theorem mem_blk6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v12_1).slice (win0_6.rect t)).set ↔ _
  rw [View.set_slice_whole, Rect.mem_set_unit]
  exact Iff.rfl

theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have ht : (i 0).val / 5000 < 20 := by omega
  refine ⟨⟨(i 0).val / 5000, ht⟩, flush0_6 _, ?_⟩
  rw [mem_blk6]
  obtain ⟨-, -, -, -, -, -, -, -, -, -, -, -, e0, e1, -⟩ := idx_facts ⟨(i 0).val / 5000, ht⟩
  intro a
  match a with
  | ⟨0, _⟩ => show win0_6.index ⟨(i 0).val / 5000, ht⟩ (0 : Fin 2) * 5000 ≤ (i 0).val ∧ (i 0).val < win0_6.index ⟨(i 0).val / 5000, ht⟩ (0 : Fin 2) * 5000 + 5000; rw [e0]; show (i 0).val / 5000 * 5000 ≤ _ ∧ _ < (i 0).val / 5000 * 5000 + 5000; omega
  | ⟨1, _⟩ => show win0_6.index ⟨(i 0).val / 5000, ht⟩ (1 : Fin 2) * 128 ≤ (i 1).val ∧ (i 1).val < win0_6.index ⟨(i 0).val / 5000, ht⟩ (1 : Fin 2) * 128 + 128; omega

/-- Output window 6: the skip projection x · W_skip. -/
theorem arr_skip (c : Dev nD) : (dat0 V c).arrAt 6 cfg0.N = KF.proj (V c main_arg0) (V c main_arg3) :=
  (dat0 V c).arrAt_eq_of_cover 6 _ (fun t _ => flushed6_eq V c t) cover6

/-! ## Window 7: (x · W_proj) · A_src -/

/-- What point t writes back is block t of (x · W_proj) · A_src: entry (r, h) of the block is the sum over the lanes l
    of the block's projection entry (r, l), which is the projection's entry (5000 t + r, l), times A_src (l, h). -/
theorem flushed7_eq (c : Dev nD) (t : Fin cfg0.N) :
    (dat0 V c).flushed 7 t = ((cfg0.win 7).blk t).view.read (Elt Ideal)
      (mm 100000 128 8 (KF.proj (V c main_arg0) (V c main_arg2)) (V c main_v7)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S128x8) hz]
  funext j
  show k0_pay4 (iblk0 V c 0 t) (iblk0 V c 1 t) (iblk0 V c 3 t) j
    = mm 100000 128 8 (KF.proj (V c main_arg0) (V c main_arg2)) (V c main_v7) (((cfg0.win 7).blk t).view.emb j)
  obtain ⟨-, -, -, -, -, -, -, -, -, -, -, -, -, -, e0, e1, -⟩ := idx_facts t
  have f0 : ((((cfg0.win 7).blk t).view.emb j) 0).val = t.val * 5000 + (j 0).val := by
    show win0_7.index t (0 : Fin 2) * 5000 + 1 * (j 0).val = _; omega
  have f1 : ((((cfg0.win 7).blk t).view.emb j) 1).val = (j 1).val := by
    show win0_7.index t (1 : Fin 2) * 8 + 1 * (j 1).val = _; omega
  rw [pay4_apply]
  unfold mm
  refine Finset.sum_congr rfl fun l _ => ?_
  exact congrArg₂ (· * ·) (proj_blk V c t _ _ f0 rfl) (asrc_blk V c t _ _ rfl f1)

theorem mem_blk7 (t : Fin cfg0.N) (i : S100000x8.Idx) :
    i ∈ ((cfg0.win 7).blk t).view.set ↔ ∀ a : Fin 2, win0_7.index t a * S5000x8.size a ≤ (i a).val ∧ (i a).val < win0_7.index t a * S5000x8.size a + S5000x8.size a := by
  show i ∈ ((View.whole main_v12_2).slice (win0_7.rect t)).set ↔ _
  rw [View.set_slice_whole, Rect.mem_set_unit]
  exact Iff.rfl

theorem cover7 (i : S100000x8.Idx) : ∃ t : Fin cfg0.N, (cfg0.win 7).flush t = true ∧ i ∈ ((cfg0.win 7).blk t).view.set := by
  have hi0 : (i 0).val < 100000 := (i 0).isLt
  have hi1 : (i 1).val < 8 := (i 1).isLt
  have ht : (i 0).val / 5000 < 20 := by omega
  refine ⟨⟨(i 0).val / 5000, ht⟩, flush0_7 _, ?_⟩
  rw [mem_blk7]
  obtain ⟨-, -, -, -, -, -, -, -, -, -, -, -, -, -, e0, e1, -⟩ := idx_facts ⟨(i 0).val / 5000, ht⟩
  intro a
  match a with
  | ⟨0, _⟩ => show win0_7.index ⟨(i 0).val / 5000, ht⟩ (0 : Fin 2) * 5000 ≤ (i 0).val ∧ (i 0).val < win0_7.index ⟨(i 0).val / 5000, ht⟩ (0 : Fin 2) * 5000 + 5000; rw [e0]; show (i 0).val / 5000 * 5000 ≤ _ ∧ _ < (i 0).val / 5000 * 5000 + 5000; omega
  | ⟨1, _⟩ => show win0_7.index ⟨(i 0).val / 5000, ht⟩ (1 : Fin 2) * 8 ≤ (i 1).val ∧ (i 1).val < win0_7.index ⟨(i 0).val / 5000, ht⟩ (1 : Fin 2) * 8 + 8; omega

/-- Output window 7: the source scores (x · W_proj) · A_src. -/
theorem arr_ssrc (c : Dev nD) : (dat0 V c).arrAt 7 cfg0.N
    = mm 100000 128 8 (KF.proj (V c main_arg0) (V c main_arg2)) (V c main_v7) :=
  (dat0 V c).arrAt_eq_of_cover 7 _ (fun t _ => flushed7_eq V c t) cover7

/-! ## Window 8: (x · W_proj) · A_tgt -/

theorem flushed8_eq (c : Dev nD) (t : Fin cfg0.N) :
    (dat0 V c).flushed 8 t = ((cfg0.win 8).blk t).view.read (Elt Ideal)
      (mm 100000 128 8 (KF.proj (V c main_arg0) (V c main_arg2)) (V c main_v10)) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S128x8) hz]
  funext j
  show k0_pay5 (iblk0 V c 0 t) (iblk0 V c 1 t) (iblk0 V c 4 t) j
    = mm 100000 128 8 (KF.proj (V c main_arg0) (V c main_arg2)) (V c main_v10) (((cfg0.win 8).blk t).view.emb j)
  obtain ⟨-, -, -, -, -, -, -, -, -, -, -, -, -, -, -, -, e0, e1⟩ := idx_facts t
  have f0 : ((((cfg0.win 8).blk t).view.emb j) 0).val = t.val * 5000 + (j 0).val := by
    show win0_8.index t (0 : Fin 2) * 5000 + 1 * (j 0).val = _; omega
  have f1 : ((((cfg0.win 8).blk t).view.emb j) 1).val = (j 1).val := by
    show win0_8.index t (1 : Fin 2) * 8 + 1 * (j 1).val = _; omega
  rw [pay5_apply]
  unfold mm
  refine Finset.sum_congr rfl fun l _ => ?_
  exact congrArg₂ (· * ·) (proj_blk V c t _ _ f0 rfl) (atgt_blk V c t _ _ rfl f1)

theorem mem_blk8 (t : Fin cfg0.N) (i : S100000x8.Idx) :
    i ∈ ((cfg0.win 8).blk t).view.set ↔ ∀ a : Fin 2, win0_8.index t a * S5000x8.size a ≤ (i a).val ∧ (i a).val < win0_8.index t a * S5000x8.size a + S5000x8.size a := by
  show i ∈ ((View.whole main_v12_3).slice (win0_8.rect t)).set ↔ _
  rw [View.set_slice_whole, Rect.mem_set_unit]
  exact Iff.rfl

theorem cover8 (i : S100000x8.Idx) : ∃ t : Fin cfg0.N, (cfg0.win 8).flush t = true ∧ i ∈ ((cfg0.win 8).blk t).view.set := by
  have hi0 : (i 0).val < 100000 := (i 0).isLt
  have hi1 : (i 1).val < 8 := (i 1).isLt
  have ht : (i 0).val / 5000 < 20 := by omega
  refine ⟨⟨(i 0).val / 5000, ht⟩, flush0_8 _, ?_⟩
  rw [mem_blk8]
  obtain ⟨-, -, -, -, -, -, -, -, -, -, -, -, -, -, -, -, e0, e1⟩ := idx_facts ⟨(i 0).val / 5000, ht⟩
  intro a
  match a with
  | ⟨0, _⟩ => show win0_8.index ⟨(i 0).val / 5000, ht⟩ (0 : Fin 2) * 5000 ≤ (i 0).val ∧ (i 0).val < win0_8.index ⟨(i 0).val / 5000, ht⟩ (0 : Fin 2) * 5000 + 5000; rw [e0]; show (i 0).val / 5000 * 5000 ≤ _ ∧ _ < (i 0).val / 5000 * 5000 + 5000; omega
  | ⟨1, _⟩ => show win0_8.index ⟨(i 0).val / 5000, ht⟩ (1 : Fin 2) * 8 ≤ (i 1).val ∧ (i 1).val < win0_8.index ⟨(i 0).val / 5000, ht⟩ (1 : Fin 2) * 8 + 8; omega

/-- Output window 8: the target scores (x · W_proj) · A_tgt. -/
theorem arr_stgt (c : Dev nD) : (dat0 V c).arrAt 8 cfg0.N
    = mm 100000 128 8 (KF.proj (V c main_arg0) (V c main_arg2)) (V c main_v10) :=
  (dat0 V c).arrAt_eq_of_cover 8 _ (fun t _ => flushed8_eq V c t) cover8

end Cert.KernelIdeal.KReg0

end
-- ==== Proof.KReg1.lean ====
/-
  Region 1 (the message kernel, 160 grid points of 10000 edges): its output array when the region is left.
-/
import proofs.«155503_j57080115364429_1_alg».proof.Proof.Gen.KernelIdeal.Frame
import proofs.«155503_j57080115364429_1_alg».proof.Proof.KFacts
import proofs.«155503_j57080115364429_1_alg».proof.Proof.LibPlainDot
import Idealize.ShloMosaic.Lib.Pipeline.Value

set_option maxRecDepth 16384
noncomputable section

open scoped BigOperators

namespace Cert.KernelIdeal.KReg1

open Idealize.ShloMosaic Idealize.ShloMosaic.TcCoe Idealize.SL.Sem Idealize.ShloMosaic.ValueIdx
open Cert.KernelIdeal Cert.KernelIdeal.Gen Cert.Chain Cert.Spec

/-- The zero offset of a whole-buffer access. -/
theorem off_zero : (![0, 0] : Fin 2 → Nat) = fun _ => 0 := funext fun a => by fin_cases a <;> rfl

/-- The program's dimension numbers for the product are the plain ones: contract the left operand's last axis with
    the right operand's first, no batch axis. -/
theorem dot_plain : dot_S10000x8_S8x128_S10000x128_1_0_0_1_n_n = DotDims.plain 10000 8 128 := rfl

/-- The body's payload at an index (r, q): the projection block's entry times the sum over the 8 heads of the
    weight block's entry (r, h) times the 8-by-128 array's entry (h, q). -/
theorem pay_apply (xa : Vec Ideal S10000x8 .f32) (xo : Vec Ideal S8x128 .f32) (xp : Vec Ideal S10000x128 .f32)
    (j : S10000x128.Idx) :
    k1_pay1 xa xo xp j = xp j * Cert.Spec.mm 10000 8 128 xa xo j := by
  unfold k1_pay1
  show mulf (F := Ideal) (shapeCast S10000x128 xp shapeCasts_S10000x128_S10000x128)
      (matmul (F := Ideal) dot_S10000x8_S8x128_S10000x128_1_0_0_1_n_n none
        (shapeCast S10000x8 (xa : FVec Ideal S10000x8 .f32) shapeCasts_S10000x8_S10000x8)
        (shapeCast S8x128 (xo : FVec Ideal S8x128 .f32) shapeCasts_S8x128_S8x128) (constant S10000x128 .f32 0x00000000#32)) j = _
  rw [mulf_apply, shapeCast_self, shapeCast_self, shapeCast_self, dot_plain]
  exact congrArg (xp j * ·) (PlainDot.matmul_zero_apply 10000 8 128 xa xo j)

variable (V : (c : Dev nD) → (b : Ref sig .tc) → Buf (Elt Ideal) ((c : Thread nD τ).loc b))

/-- The printed index maps, decided over the grid: at point t every moving window is at block row t, and the
    8-by-128 array is fetched whole. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The projection window's block at point t is rows 10000 t … 10000 t + 9999 of the gathered projections. -/
theorem blk_pg (c : Dev nD) (t : Fin cfg1.N) (y : S10000x128.Idx) (i : SEx128.Idx)
    (h0 : (i 0).val = 10000 * t.val + (y 0).val) (h1 : (i 1).val = (y 1).val) :
    (iblk1 V c 0 t : Vec Ideal S10000x128 .f32) y = (V c main_v56 : SEx128.Idx → EReal) i := by
  obtain ⟨e0, e1, -⟩ := idx_facts t
  unfold iblk1
  show V c main_v56 (((cfg1.win 0).blk t).view.emb y) = V c main_v56 i
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- The weight window's block at point t is rows 10000 t … 10000 t + 9999 of the attention weights. -/
theorem blk_att (c : Dev nD) (t : Fin cfg1.N) (y : S10000x8.Idx) (i : SEx8.Idx)
    (h0 : (i 0).val = 10000 * t.val + (y 0).val) (h1 : (i 1).val = (y 1).val) :
    (iblk1 V c 1 t : Vec Ideal S10000x8 .f32) y = (V c main_v49 : SEx8.Idx → EReal) i := by
  obtain ⟨-, -, e0, e1, -⟩ := idx_facts t
  unfold iblk1
  show V c main_v49 (((cfg1.win 1).blk t).view.emb y) = V c main_v49 i
  congr 1
  funext a
  apply Fin.ext
  match a with
  | ⟨0, _⟩ => show win1_1.index t (0 : Fin 2) * 10000 + 1 * (y 0).val = (i 0).val; rw [e0, h0]; omega
  | ⟨1, _⟩ => show win1_1.index t (1 : Fin 2) * 8 + 1 * (y 1).val = (i 1).val; rw [e1, h1]; omega

/-- The third window's block at every point is the whole 8-by-128 array. -/
theorem blk_o (c : Dev nD) (t : Fin cfg1.N) (y : S8x128.Idx) (i : S8x128.Idx)
    (h0 : (i 0).val = (y 0).val) (h1 : (i 1).val = (y 1).val) :
    (iblk1 V c 2 t : Vec Ideal S8x128 .f32) y = (V c main_v11 : S8x128.Idx → EReal) i := by
  obtain ⟨-, -, -, -, e0, e1, -⟩ := idx_facts t
  unfold iblk1
  show V c main_v11 (((cfg1.win 2).blk t).view.emb y) = V c main_v11 i
  congr 1
  funext a
  apply Fin.ext
  match a with
  | ⟨0, _⟩ => show win1_2.index t (0 : Fin 2) * 8 + 1 * (y 0).val = (i 0).val; rw [e0, h0]; omega
  | ⟨1, _⟩ => show win1_2.index t (1 : Fin 2) * 128 + 1 * (y 1).val = (i 1).val; rw [e1, h1]; omega

/-- What point t writes back is block t (rows 10000 t … 10000 t + 9999) of the message array. -/
theorem flushed_msg (c : Dev nD) (t : Fin cfg1.N) :
    (dat1 V c).flushed 3 t
      = ((cfg1.win 3).blk t).view.read (Elt Ideal) (KF.msgOf (V c main_v56) (V c main_v49) (V c main_v11)) := by
  show (cfg1.win 3).cut (grid1.coords t) ((dat1 V c).after 3 t) = _
  rw [after1_3]
  unfold out1_3
  rw [View.canon_unit_zero off_zero]
  simp only [View.ld_unit_zero (S := S10000x128) off_zero, View.ld_unit_zero (S := S10000x8) off_zero,
    View.ld_unit_zero (S := S8x128) off_zero]
  obtain ⟨-, -, -, -, -, -, e0, e1⟩ := idx_facts t
  funext j
  show k1_pay1 (iblk1 V c 1 t) (iblk1 V c 2 t) (iblk1 V c 0 t) j
    = KF.msgOf (V c main_v56) (V c main_v49) (V c main_v11) (((cfg1.win 3).blk t).view.emb j)
  have r0 : ((((cfg1.win 3).blk t).view.emb j : SEx128.Idx) 0).val = 10000 * t.val + (j 0).val := by
    show win1_3.index t (0 : Fin 2) * 10000 + 1 * (j 0).val = _; rw [e0]; omega
  have r1 : ((((cfg1.win 3).blk t).view.emb j : SEx128.Idx) 1).val = (j 1).val := by
    show win1_3.index t (1 : Fin 2) * 128 + 1 * (j 1).val = _; rw [e1]; omega
  refine (pay_apply (iblk1 V c 1 t) (iblk1 V c 2 t) (iblk1 V c 0 t) j).trans ?_
  unfold KF.msgOf Cert.Spec.mm
  rw [blk_pg V c t j _ r0 r1]
  refine congrArg _ (Finset.sum_congr rfl fun k _ => ?_)
  rw [blk_att V c t (ix2 (n0 := 10000) (n1 := 8) ⟨(j 0).val, (j 0).isLt⟩ k)
      (ix2 (n0 := 1600000) (n1 := 8) ⟨_, (((cfg1.win 3).blk t).view.emb j 0).isLt⟩ k) r0 rfl,
    blk_o V c t (ix2 (n0 := 8) (n1 := 128) k ⟨(j 1).val, (j 1).isLt⟩)
      (ix2 (n0 := 8) (n1 := 128) k ⟨_, (((cfg1.win 3).blk t).view.emb j 1).isLt⟩) rfl r1]

/-- An edge-lane index is in point t's block iff its row is among the block's 10000 rows (the 128 lanes are whole). -/
theorem mem_blk (t : Fin cfg1.N) (i : SEx128.Idx) :
    i ∈ ((cfg1.win 3).blk t).view.set
      ↔ ∀ a : Fin 2, win1_3.index t a * S10000x128.size a ≤ (i a).val
        ∧ (i a).val < win1_3.index t a * S10000x128.size a + S10000x128.size a := by
  show i ∈ ((View.whole main_v57).slice (win1_3.rect t)).set ↔ _
  rw [View.set_slice_whole, Rect.mem_set_unit]
  exact Iff.rfl

/-- Every edge row r is in the block of the point r / 10000. -/
theorem cover (i : SEx128.Idx) : ∃ t : Fin cfg1.N, (cfg1.win 3).flush t = true ∧ i ∈ ((cfg1.win 3).blk t).view.set := by
  have hi0 : (i 0).val < 1600000 := (i 0).isLt
  have hi1 : (i 1).val < 128 := (i 1).isLt
  refine ⟨⟨(i 0).val / 10000, by show (i 0).val / 10000 < 160; omega⟩, flush1_3 _, ?_⟩
  rw [mem_blk]
  obtain ⟨-, -, -, -, -, -, e0, e1⟩ := idx_facts ⟨(i 0).val / 10000, by show (i 0).val / 10000 < 160; omega⟩
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e1]; omega

/-- Output window 3: each gathered projection entry times its head's attention weight (the weights [E, 8] spread over
    the lanes by the product with the 8-by-128 array the region finds in main_v11). -/
theorem arr_msg (c : Dev nD) : (dat1 V c).arrAt 3 cfg1.N
    = KF.msgOf (V c main_v56) (V c main_v49) (V c main_v11) :=
  (dat1 V c).arrAt_eq_of_cover 3 (KF.msgOf (V c main_v56) (V c main_v49) (V c main_v11))
    (fun t _ => flushed_msg V c t) cover

end Cert.KernelIdeal.KReg1

end
-- ==== Proof.KReg2.lean ====
/-
  Region 2 (the finalize kernel, 20 grid points of 5000 rows): its output array when the region is left.
-/
import proofs.«155503_j57080115364429_1_alg».proof.Proof.Gen.KernelIdeal.Frame
import proofs.«155503_j57080115364429_1_alg».proof.Proof.KFacts
import Idealize.ShloMosaic.Lib.Pipeline.Value
import Idealize.ShloMosaic.PureOps.Ideal.Laws
import Idealize.ShloMosaic.PureOps.IdealRules

set_option maxRecDepth 16384
noncomputable section

open scoped BigOperators

namespace Cert.KernelIdeal.KReg2

open Idealize.ShloMosaic Idealize.ShloMosaic.TcCoe Idealize.SL.Sem Idealize.ShloMosaic.ValueIdx
open Cert.KernelIdeal Cert.KernelIdeal.Gen Cert.Chain Cert.Spec

/-- The zero offset of a whole-buffer access. -/
theorem off_zero : (![0, 0] : Fin 2 → Nat) = fun _ => 0 := funext fun a => by fin_cases a <;> rfl

/-- The literal 1.0 is one. -/
theorem lit_one : Ideal.ofBits .f32 0x3F800000#32 = 1 := IdealRules.sign_bit.ideal_onePat .f32

/-- The body's payload at an index: the exponential linear unit of the sum of the two blocks' entries (where the
    sum is positive the comparison's bit is set and the sum itself is chosen, elsewhere its exponential less one). -/
theorem pay_apply (xa xs : Vec Ideal S5000x128 .f32) (j : S5000x128.Idx) :
    k2_pay1 xa xs j = eluK (xa j + xs j) := by
  unfold k2_pay1
  rw [select_apply, cmpf_apply, subf_apply, addf_apply, shapeCast_self, shapeCast_self, broadcast_apply, broadcast_apply]
  show Scalar.select (Ideal.cmp .ogt (xa j + xs j) (Ideal.ofBits .f32 0x00000000#32)) (xa j + xs j)
      (Ideal.exp (xa j + xs j) - Ideal.ofBits .f32 0x3F800000#32) = _
  rw [Ideal.ofBits_zero_f32, lit_one]
  unfold eluK Ideal.cmp
  by_cases h : (0 : EReal) < xa j + xs j
  · rw [if_pos h]
    show Scalar.select (BitVec.ofBool (decide ((0 : EReal) < xa j + xs j))) _ _ = _
    rw [decide_eq_true h]
    exact select_one _ _
  · rw [if_neg h]
    show Scalar.select (BitVec.ofBool (decide ((0 : EReal) < xa j + xs j))) _ _ = _
    rw [decide_eq_false h]
    exact select_zero _ _

variable (V : (c : Dev nD) → (b : Ref sig .tc) → Buf (Elt Ideal) ((c : Thread nD τ).loc b))

/-- The printed index maps, decided over the grid: at point t every window is at block row t. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The aggregate window's block at point t is rows 5000 t … 5000 t + 4999 of the aggregate. -/
theorem blk_agg (c : Dev nD) (t : Fin cfg2.N) (y : S5000x128.Idx) (i : SNx128.Idx)
    (h0 : (i 0).val = 5000 * t.val + (y 0).val) (h1 : (i 1).val = (y 1).val) :
    (iblk2 V c 0 t : Vec Ideal S5000x128 .f32) y = (V c main_v60 : SNx128.Idx → EReal) i := by
  obtain ⟨e0, e1, -⟩ := idx_facts t
  unfold iblk2
  show V c main_v60 (((cfg2.win 0).blk t).view.emb y) = V c main_v60 i
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The skip window's block at point t is rows 5000 t … 5000 t + 4999 of the skip projection. -/
theorem blk_skip (c : Dev nD) (t : Fin cfg2.N) (y : S5000x128.Idx) (i : SNx128.Idx)
    (h0 : (i 0).val = 5000 * t.val + (y 0).val) (h1 : (i 1).val = (y 1).val) :
    (iblk2 V c 1 t : Vec Ideal S5000x128 .f32) y = (V c main_v12_1 : SNx128.Idx → EReal) i := by
  obtain ⟨-, -, e0, e1, -⟩ := idx_facts t
  unfold iblk2
  show V c main_v12_1 (((cfg2.win 1).blk t).view.emb y) = V c main_v12_1 i
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 128 + 1 * (y 1).val = (i 1).val; rw [e1, h1]; omega

/-- What point t writes back is block t (rows 5000 t … 5000 t + 4999) of the result array. -/
theorem flushed_fin (c : Dev nD) (t : Fin cfg2.N) :
    (dat2 V c).flushed 2 t
      = ((cfg2.win 2).blk t).view.read (Elt Ideal) (KF.finOf (V c main_v60) (V c main_v12_1)) := by
  show (cfg2.win 2).cut (grid2.coords t) ((dat2 V c).after 2 t) = _
  rw [after2_2]
  unfold out2_2
  rw [View.canon_unit_zero off_zero]
  simp only [View.ld_unit_zero (S := S5000x128) off_zero]
  obtain ⟨-, -, -, -, e0, e1⟩ := idx_facts t
  funext j
  show k2_pay1 (iblk2 V c 0 t) (iblk2 V c 1 t) j
    = KF.finOf (V c main_v60) (V c main_v12_1) (((cfg2.win 2).blk t).view.emb j)
  have r0 : ((((cfg2.win 2).blk t).view.emb j : SNx128.Idx) 0).val = 5000 * t.val + (j 0).val := by
    show win2_2.index t (0 : Fin 2) * 5000 + 1 * (j 0).val = _; rw [e0]; omega
  have r1 : ((((cfg2.win 2).blk t).view.emb j : SNx128.Idx) 1).val = (j 1).val := by
    show win2_2.index t (1 : Fin 2) * 128 + 1 * (j 1).val = _; rw [e1]; omega
  refine (pay_apply (iblk2 V c 0 t) (iblk2 V c 1 t) j).trans ?_
  unfold KF.finOf
  rw [blk_agg V c t j _ r0 r1, blk_skip V c t j _ r0 r1]

/-- A node-lane index is in point t's block iff its row is among the block's 5000 rows (the 128 lanes are whole). -/
theorem mem_blk (t : Fin cfg2.N) (i : SNx128.Idx) :
    i ∈ ((cfg2.win 2).blk t).view.set
      ↔ ∀ a : Fin 2, win2_2.index t a * S5000x128.size a ≤ (i a).val
        ∧ (i a).val < win2_2.index t a * S5000x128.size a + S5000x128.size a := by
  show i ∈ ((View.whole main_v61).slice (win2_2.rect t)).set ↔ _
  rw [View.set_slice_whole, Rect.mem_set_unit]
  exact Iff.rfl

/-- Every node row r is in the block of the point r / 5000. -/
theorem cover (i : SNx128.Idx) : ∃ t : Fin cfg2.N, (cfg2.win 2).flush t = true ∧ i ∈ ((cfg2.win 2).blk t).view.set := by
  have hi0 : (i 0).val < 100000 := (i 0).isLt
  have hi1 : (i 1).val < 128 := (i 1).isLt
  refine ⟨⟨(i 0).val / 5000, by show (i 0).val / 5000 < 20; omega⟩, flush2_2 _, ?_⟩
  rw [mem_blk]
  obtain ⟨-, -, -, -, e0, e1⟩ := idx_facts ⟨(i 0).val / 5000, by show (i 0).val / 5000 < 20; omega⟩
  intro a
  match a with
  | ⟨0, _⟩ =>
    show win2_2.index _ (0 : Fin 2) * 5000 ≤ (i 0).val ∧ (i 0).val < win2_2.index _ (0 : Fin 2) * 5000 + 5000
    rw [e0]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e1]; omega

/-- Output window 2: the exponential linear unit of aggregate + skip. -/
theorem arr_out (c : Dev nD) : (dat2 V c).arrAt 2 cfg2.N = KF.finOf (V c main_v60) (V c main_v12_1) :=
  (dat2 V c).arrAt_eq_of_cover 2 (KF.finOf (V c main_v60) (V c main_v12_1))
    (fun t _ => flushed_fin V c t) cover

end Cert.KernelIdeal.KReg2

end
-- ==== Proof.KHost0.lean ====
/-
  The host operations before region 0: the lane-of-head matrix, the two lane-weight matrices and the zero-one
  matrix the regions read, as functions of the arguments; and the arguments region 0 reads, as launched.

  Each stretch of operations is first read as one function of the arrays it starts from (whatever those hold), then
  that function is read at an index: the lane numbers floor-divided by 16 are the natural quotients l / 16 (checked
  on the 128 lanes), comparing that column with the head numbers 0 … 7 gives the zero-one matrix, and the weight
  array's row-major flattening at lane l is its entry (0, l / 16, l % 16).
-/
import proofs.«155503_j57080115364429_1_alg».proof.Proof.Gen.KernelIdeal.Frame
import proofs.«155503_j57080115364429_1_alg».proof.Proof.KFacts
import Idealize.ShloMosaic.Lib.StableHlo.Run
import Idealize.ShloMosaic.Lib.Pipeline.Value
import Idealize.ShloMosaic.Lib.ValueLayout

set_option maxRecDepth 16384
noncomputable section

open scoped BigOperators

namespace Cert.KernelIdeal.KHost0

open Idealize.ShloMosaic Idealize.ShloMosaic.TcCoe Idealize.SL.Sem Idealize.ShloMosaic.ValueIdx
open Cert.KernelIdeal Cert.KernelIdeal.Gen Cert.Chain Cert.Spec

variable (m : (ℓ : Loc nD τ sig) → Buf (Elt Ideal) ℓ) (ρ : Dev nD → PrngReg)

/-! ## The argument arrays: no host operation writes one -/

theorem w4_arg0 (c : Dev nD) : W4 m ρ c (Proc.devRef .tc main_arg0) = m ((c : Thread nD τ).loc main_arg0) := by
  show StableHlo.after hostOps0_3 (StableHlo.after hostOps0_2 (StableHlo.after hostOps0_1
    (StableHlo.after hostOps0 (W0 m ρ c)))) (Proc.devRef .tc main_arg0) = _
  simp only [hostOps0_3, hostOps0_2, hostOps0_1, hostOps0]
  after_results_simp

/-! ## The head of each lane: the lane number floor-divided by 16 -/

/-- The sign of a word: 0, 1 or -1. -/
def sgnW (x : BitVec 32) : BitVec 32 := if x = 0 then 0 else if x.msb then -1 else 1

/-- Floor division of two words as the program spells it: the quotient rounded toward zero, less one where the signs
    differ and the remainder is not zero. -/
def fdivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

/-- On the 128 lanes, floor division by 16 is the natural quotient. -/
theorem fdivW_lane : ∀ l : Fin 128, fdivW (BitVec.ofNat 32 l.val) 16#32 = BitVec.ofNat 32 (l.val / 16) := by
  decide +kernel

/-- The same floor division on a vector of 128 words by a scalar word, operation by operation. -/
def fdivV (x : IVec Cert.KernelIdeal.S128 32) (d : IVec Cert.KernelIdeal.S_ 32) : IVec Cert.KernelIdeal.S128 32 :=
  select
    (andi (cmpi .ne (signi x) (broadcastInDim Cert.KernelIdeal.S128 ![] Gen.bcast_S_S128 (signi d)))
      (cmpi .ne (Host.remsi x (broadcastInDim Cert.KernelIdeal.S128 ![] Gen.bcast_S_S128 d))
        (broadcastInDim Cert.KernelIdeal.S128 ![] Gen.bcast_S_S128 (constantI Cert.KernelIdeal.S_ 32 0#32))))
    (subi (Host.divsi x (broadcastInDim Cert.KernelIdeal.S128 ![] Gen.bcast_S_S128 d))
      (broadcastInDim Cert.KernelIdeal.S128 ![] Gen.bcast_S_S128 (constantI Cert.KernelIdeal.S_ 32 1#32)))
    (Host.divsi x (broadcastInDim Cert.KernelIdeal.S128 ![] Gen.bcast_S_S128 d))

theorem fdivV_iota (i : Cert.KernelIdeal.S128.Idx) :
    fdivV (iotaInDim Cert.KernelIdeal.S128 32 0) (constantI Cert.KernelIdeal.S_ 32 16#32) i = BitVec.ofNat 32 ((i 0).val / 16) :=
  fdivW_lane (i 0)

/-- The floor-division stretch writes the floor division of what it reads. -/
theorem after1_v1 (V : Valuation τ sig (Elt Ideal)) :
    StableHlo.after (hostOps0_1 (F := Ideal)) V (Proc.devRef .tc main_v1)
      = fdivV (V (Proc.devRef .tc main_v0)) (V (Proc.devRef .tc main_c)) := by
  simp only [hostOps0_1]
  after_results_simp
  rfl

/-- The first stretch writes the lane numbers and the constant 16. -/
theorem after0_v0 (V : Valuation τ sig (Elt Ideal)) :
    StableHlo.after (hostOps0 (F := Ideal)) V (Proc.devRef .tc main_v0) = iotaInDim Cert.KernelIdeal.S128 32 0 := by
  simp only [hostOps0]
  after_results_simp
theorem after0_c (V : Valuation τ sig (Elt Ideal)) :
    StableHlo.after (hostOps0 (F := Ideal)) V (Proc.devRef .tc main_c) = constantI Cert.KernelIdeal.S_ 32 16#32 := by
  simp only [hostOps0]
  after_results_simp

/-- The head-of-lane column: lane l holds l / 16. -/
theorem w2_v1 (c : Dev nD) :
    (W2 m ρ c (Proc.devRef .tc main_v1) : IVec Cert.KernelIdeal.S128 32) = fun i => BitVec.ofNat 32 ((i 0).val / 16) := by
  show StableHlo.after hostOps0_1 (StableHlo.after hostOps0 (W0 m ρ c)) (Proc.devRef .tc main_v1) = _
  rw [after1_v1, after0_v0, after0_c]
  exact funext fdivV_iota

/-! ## The lane-of-head matrix -/

/-- The zero-one matrix stretch on a column h of 128 words: at (l, k), whether h l is the word k, as a float. -/
def ohV (h : IVec Cert.KernelIdeal.S128 32) : FVec Ideal Cert.KernelIdeal.S128x8 .f32 :=
  uitofp .f32
    (cmpi .eq
      (broadcastInDim Cert.KernelIdeal.S128x8 ![0, 1] Gen.bcast_S128x1_S128x8_0_1
        (broadcastInDim Cert.KernelIdeal.S128x1 ![0] Gen.bcast_S128_S128x1_0 h))
      (broadcastInDim Cert.KernelIdeal.S128x8 ![0, 1] Gen.bcast_S1x8_S128x8_0_1 (iotaInDim Cert.KernelIdeal.S1x8 32 1)))

theorem after2_v2 (V : Valuation τ sig (Elt Ideal)) :
    StableHlo.after (hostOps0_2 (F := Ideal)) V (Proc.devRef .tc main_v2) = ohV (V (Proc.devRef .tc main_v1)) := by
  simp only [hostOps0_2]
  after_results_simp
  rfl

/-- A column [128] spread over 8 columns reads its row's entry. -/
theorem spread_apply {α : Type} (x : Cert.KernelIdeal.S128.Idx → α) (p : Fin 128) (q : Fin 8) :
    broadcastInDim Cert.KernelIdeal.S128x8 ![0, 1] Gen.bcast_S128x1_S128x8_0_1
      (broadcastInDim Cert.KernelIdeal.S128x1 ![0] Gen.bcast_S128_S128x1_0 x) (ix2 p q) = x (ix1 p) := by
  rw [broadcastInDim_apply _ _ _ (ix2 p q) (ix2 p 0) (by intro a; fin_cases a <;> rfl),
    broadcastInDim_apply _ _ _ (ix2 p 0) (ix1 p) (by intro a; fin_cases a; rfl)]

theorem ohV_apply (h : IVec Cert.KernelIdeal.S128 32) (p : Fin 128) (q : Fin 8) :
    ohV h (ix2 p q) = if h (ix1 p) = BitVec.ofNat 32 q.val then 1 else 0 := by
  show (((IntOp.cmpi .eq
      (broadcastInDim Cert.KernelIdeal.S128x8 ![0, 1] Gen.bcast_S128x1_S128x8_0_1
        (broadcastInDim Cert.KernelIdeal.S128x1 ![0] Gen.bcast_S128_S128x1_0 h) (ix2 p q))
      (broadcastInDim Cert.KernelIdeal.S128x8 ![0, 1] Gen.bcast_S1x8_S128x8_0_1 (iotaInDim Cert.KernelIdeal.S1x8 32 1) (ix2 p q))).toNat : ℝ) : EReal) = _
  rw [spread_apply, broadcastInDim_apply _ _ (iotaInDim Cert.KernelIdeal.S1x8 32 1) (ix2 p q) (ix2 0 q) (by intro a; fin_cases a <;> rfl)]
  show (((IntOp.cmpi .eq (h (ix1 p)) (BitVec.ofNat 32 q.val)).toNat : ℝ) : EReal) = _
  by_cases e : h (ix1 p) = BitVec.ofNat 32 q.val
  · rw [if_pos e, e]; simp [IntOp.cmpi]
  · rw [if_neg e]; simp [IntOp.cmpi, e]

/-- The lane-of-head matrix: one at (l, h) where lane l belongs to head h. -/
theorem w3_v2 (c : Dev nD) :
    (W3 m ρ c (Proc.devRef .tc main_v2) : FVec Ideal Cert.KernelIdeal.S128x8 .f32) = fun i => oh (i 0).val (i 1).val := by
  show StableHlo.after hostOps0_2 (W2 m ρ c) (Proc.devRef .tc main_v2) = _
  rw [after2_v2, w2_v1]
  funext i
  obtain ⟨p, q, rfl⟩ : ∃ (p : Fin 128) (q : Fin 8), i = ix2 p q := ⟨i 0, i 1, eq_ix2 i⟩
  rw [ohV_apply]
  show (if BitVec.ofNat 32 (p.val / 16) = BitVec.ofNat 32 q.val then (1 : EReal) else 0) = if p.val / 16 = q.val then 1 else 0
  have hp := p.isLt
  have hq := q.isLt
  by_cases e : p.val / 16 = q.val
  · rw [if_pos e, e, if_pos rfl]
  · rw [if_neg e, if_neg]
    intro h
    apply e
    have := congrArg BitVec.toNat h
    simp only [BitVec.toNat_ofNat] at this
    omega

/-! ## The lane-weight matrices and the transposed zero-one matrix -/

/-- The lane-weight stretch: a [128, 8] matrix o times the weight array a flattened to [128] and spread over the 8 columns. -/
def wexpV (o : FVec Ideal Cert.KernelIdeal.S128x8 .f32) (a : FVec Ideal Cert.KernelIdeal.S1x8x16 .f32) :
    FVec Ideal Cert.KernelIdeal.S128x8 .f32 :=
  mulf o
    (broadcastInDim Cert.KernelIdeal.S128x8 ![0, 1] Gen.bcast_S128x1_S128x8_0_1
      (broadcastInDim Cert.KernelIdeal.S128x1 ![0] Gen.bcast_S128_S128x1_0
        (shapeCast Cert.KernelIdeal.S128 a Gen.shapeCasts_S1x8x16_S128)))

theorem after3_v7 (V : Valuation τ sig (Elt Ideal)) :
    StableHlo.after (hostOps0_3 (F := Ideal)) V (Proc.devRef .tc main_v7)
      = wexpV (V (Proc.devRef .tc main_v2)) (V (Proc.devRef .tc main_arg4)) := by
  simp only [hostOps0_3]
  after_results_simp
  rfl
theorem after3_v10 (V : Valuation τ sig (Elt Ideal)) :
    StableHlo.after (hostOps0_3 (F := Ideal)) V (Proc.devRef .tc main_v10)
      = wexpV (V (Proc.devRef .tc main_v2)) (V (Proc.devRef .tc main_arg5)) := by
  simp only [hostOps0_3]
  after_results_simp
  rfl
theorem after3_v11 (V : Valuation τ sig (Elt Ideal)) :
    StableHlo.after (hostOps0_3 (F := Ideal)) V (Proc.devRef .tc main_v11)
      = transpose Cert.KernelIdeal.S8x128 [1, 0] (V (Proc.devRef .tc main_v2) : FVec Ideal Cert.KernelIdeal.S128x8 .f32)
          Gen.transposes_S128x8_S8x128_1_0 := by
  simp only [hostOps0_3]
  after_results_simp

/-- The two weight arrays are still as launched when the last stretch reads them. -/
theorem w3_arg4 (c : Dev nD) : W3 m ρ c (Proc.devRef .tc main_arg4) = m ((c : Thread nD τ).loc main_arg4) := by
  show StableHlo.after hostOps0_2 (StableHlo.after hostOps0_1 (StableHlo.after hostOps0 (W0 m ρ c)))
    (Proc.devRef .tc main_arg4) = _
  simp only [hostOps0_2, hostOps0_1, hostOps0]
  after_results_simp
theorem w3_arg5 (c : Dev nD) : W3 m ρ c (Proc.devRef .tc main_arg5) = m ((c : Thread nD τ).loc main_arg5) := by
  show StableHlo.after hostOps0_2 (StableHlo.after hostOps0_1 (StableHlo.after hostOps0 (W0 m ρ c)))
    (Proc.devRef .tc main_arg5) = _
  simp only [hostOps0_2, hostOps0_1, hostOps0]
  after_results_simp

/-- Entry l of the row-major flattening of a [1, 8, 16] array is its entry (0, l / 16, l % 16). -/
theorem flat_apply {α : Type} (a : Cert.KernelIdeal.S1x8x16.Idx → α) (p : Fin 128) :
    shapeCast Cert.KernelIdeal.S128 a Gen.shapeCasts_S1x8x16_S128 (ix1 p)
      = a (ix3 (n0 := 1) (n1 := 8) (n2 := 16) 0 ⟨p.val / 16, Nat.div_lt_of_lt_mul p.isLt⟩ ⟨p.val % 16, Nat.mod_lt _ (by decide)⟩) := by
  refine shapeCast_apply a _ (ix1 p) _ ?_
  rw [Shape.rowMajor_val_three, Shape.rowMajor_val_one]
  show (0 * 8 + p.val / 16) * 16 + p.val % 16 = p.val
  omega

theorem wexpV_apply (o : FVec Ideal Cert.KernelIdeal.S128x8 .f32) (a : FVec Ideal Cert.KernelIdeal.S1x8x16 .f32)
    (p : Fin 128) (q : Fin 8) :
    wexpV o a (ix2 p q)
      = o (ix2 p q) * a (ix3 (n0 := 1) (n1 := 8) (n2 := 16) 0 ⟨p.val / 16, Nat.div_lt_of_lt_mul p.isLt⟩ ⟨p.val % 16, Nat.mod_lt _ (by decide)⟩) := by
  show o (ix2 p q) * broadcastInDim Cert.KernelIdeal.S128x8 ![0, 1] Gen.bcast_S128x1_S128x8_0_1
      (broadcastInDim Cert.KernelIdeal.S128x1 ![0] Gen.bcast_S128_S128x1_0
        (shapeCast Cert.KernelIdeal.S128 a Gen.shapeCasts_S1x8x16_S128)) (ix2 p q) = _
  rw [spread_apply, flat_apply]

theorem w4_v7 (c : Dev nD) : W4 m ρ c (Proc.devRef .tc main_v7) = aexp (m ((c : Thread nD τ).loc main_arg4)) := by
  show StableHlo.after hostOps0_3 (W3 m ρ c) (Proc.devRef .tc main_v7) = _
  rw [after3_v7, w3_v2, w3_arg4]
  funext i
  obtain ⟨p, q, rfl⟩ : ∃ (p : Fin 128) (q : Fin 8), i = ix2 p q := ⟨i 0, i 1, eq_ix2 i⟩
  rw [wexpV_apply]
  rfl
theorem w4_v10 (c : Dev nD) : W4 m ρ c (Proc.devRef .tc main_v10) = aexp (m ((c : Thread nD τ).loc main_arg5)) := by
  show StableHlo.after hostOps0_3 (W3 m ρ c) (Proc.devRef .tc main_v10) = _
  rw [after3_v10, w3_v2, w3_arg5]
  funext i
  obtain ⟨p, q, rfl⟩ : ∃ (p : Fin 128) (q : Fin 8), i = ix2 p q := ⟨i 0, i 1, eq_ix2 i⟩
  rw [wexpV_apply]
  rfl
theorem w4_v11 (c : Dev nD) : W4 m ρ c (Proc.devRef .tc main_v11) = ohT := by
  show StableHlo.after hostOps0_3 (W3 m ρ c) (Proc.devRef .tc main_v11) = _
  rw [after3_v11, w3_v2]
  funext i
  obtain ⟨h, l, rfl⟩ : ∃ (h : Fin 8) (l : Fin 128), i = ix2 h l := ⟨i 0, i 1, eq_ix2 i⟩
  rw [transpose_apply _ _ _ (ix2 h l) (ix2 l h) (by intro b; fin_cases b <;> rfl)]
  rfl
theorem w4_arg2 (c : Dev nD) : W4 m ρ c (Proc.devRef .tc main_arg2) = m ((c : Thread nD τ).loc main_arg2) := by
  show StableHlo.after hostOps0_3 (StableHlo.after hostOps0_2 (StableHlo.after hostOps0_1
    (StableHlo.after hostOps0 (W0 m ρ c)))) (Proc.devRef .tc main_arg2) = _
  simp only [hostOps0_3, hostOps0_2, hostOps0_1, hostOps0]
  after_results_simp
theorem w4_arg3 (c : Dev nD) : W4 m ρ c (Proc.devRef .tc main_arg3) = m ((c : Thread nD τ).loc main_arg3) := by
  show StableHlo.after hostOps0_3 (StableHlo.after hostOps0_2 (StableHlo.after hostOps0_1
    (StableHlo.after hostOps0 (W0 m ρ c)))) (Proc.devRef .tc main_arg3) = _
  simp only [hostOps0_3, hostOps0_2, hostOps0_1, hostOps0]
  after_results_simp

end Cert.KernelIdeal.KHost0

end
-- ==== Proof.KHost1.lean ====
/-
  The host operations between the regions: what regions 1 and 2 find in the arrays they read, as functions of what
  the region before left and of the index argument.
-/
import proofs.«155503_j57080115364429_1_alg».proof.Proof.Gen.KernelIdeal.Frame
import proofs.«155503_j57080115364429_1_alg».proof.Proof.KFacts
import Idealize.ShloMosaic.Lib.StableHlo.Run

set_option maxRecDepth 16384
noncomputable section

open scoped BigOperators

namespace Cert.KernelIdeal.KHost1

open Idealize.ShloMosaic Idealize.ShloMosaic.TcCoe Idealize.SL.Sem Idealize.ShloMosaic.ValueIdx
open Cert.KernelIdeal Cert.KernelIdeal.Gen Cert.Chain Cert.Spec

variable (m : (ℓ : Loc nD τ sig) → Buf (Elt Ideal) ℓ) (ρ : Dev nD → PrngReg)

/-! ## The normalisation, from the rectified scores and the targets' row -/

/-- The exponentials of the rectified scores `s` after their maximum over all edges and heads is taken off. -/
def expOf (s : FVec Ideal SEx8 .f32) : FVec Ideal SEx8 .f32 :=
  Host.exp (subf s (broadcastInDim SEx8 ![] KF.hA.b0E8
    (Host.reduce FloatOps.maximumf s (constant S0 .f32 0xFF800000#32) KF.hA.red KF.hA.h0)))

/-- Each exponential over (the sum of the exponentials of the edges with the same target, read back at the edge's
    target `t e`, plus 1e-16). -/
def normOf (s : FVec Ideal SEx8 .f32) (t : IVec SE 32) : FVec Ideal SEx8 .f32 :=
  Host.divf (expOf s)
    (addf (Host.gather KF.g8
        (Host.scatterAdd KF.sc8 (broadcastInDim SNx8 ![] KF.hA.b0N8 (constant S0 .f32 0x00000000#32)) (col KF.hI t) (expOf s))
        (wrapCol KF.hI t))
      (broadcastInDim SEx8 ![] KF.hA.b0E8 (constant S0 .f32 0x24E69595#32)))

/-- The attention weights are the normalisation of the rectified edge scores at the targets' row. -/
theorem attOf_eq (ss st : FVec Ideal SNx8 .f32) (ei : IVec S2xE 32) :
    attOf KF.hI KF.hA KF.g8 KF.sc8 ss st ei = normOf (edgeScore KF.hI KF.hA KF.g8 ss st ei) (tgtRow KF.hI ei) := rfl

/-! ## Each stretch from any contents `V` of the arrays: what it leaves in the arrays read later -/

section Stretches

variable (V : Valuation τ sig (Elt Ideal))

/-! ### The first stretch: the two index rows and the sum of the gathered scores -/

/-- The sources' row. -/
theorem s1_v14 : StableHlo.after hostOps1 V (Proc.devRef .tc main_v14) = srcRow KF.hI (V (Proc.devRef .tc main_arg1)) := by
  dsimp only [hostOps1]
  after_results_simp
  rfl
/-- The targets' row. -/
theorem s1_v16 : StableHlo.after hostOps1 V (Proc.devRef .tc main_v16) = tgtRow KF.hI (V (Proc.devRef .tc main_arg1)) := by
  dsimp only [hostOps1]
  after_results_simp
  rfl
/-- The source's score plus the target's score, edge by edge. -/
theorem s1_v31 : StableHlo.after hostOps1 V (Proc.devRef .tc main_v31)
    = (addf (Host.gather KF.g8 (V (Proc.devRef .tc main_v12_2)) (wrapCol KF.hI (srcRow KF.hI (V (Proc.devRef .tc main_arg1)))))
        (Host.gather KF.g8 (V (Proc.devRef .tc main_v12_3)) (wrapCol KF.hI (tgtRow KF.hI (V (Proc.devRef .tc main_arg1))))) :
        FVec Ideal SEx8 .f32) := by
  dsimp only [hostOps1]
  after_results_simp
  rfl
/-- The rectifier's slope. -/
theorem s1_cst : StableHlo.after hostOps1 V (Proc.devRef .tc main_cst) = (constant S0 .f32 0x3E4CCCCD#32 : FVec Ideal S0 .f32) := by
  dsimp only [hostOps1]
  after_results_simp
/-- The projection, the skip projection and the zero-one matrix are not written. -/
theorem s1_v12_0 : StableHlo.after hostOps1 V (Proc.devRef .tc main_v12_0) = V (Proc.devRef .tc main_v12_0) := by
  dsimp only [hostOps1]
  after_results_simp
theorem s1_v12_1 : StableHlo.after hostOps1 V (Proc.devRef .tc main_v12_1) = V (Proc.devRef .tc main_v12_1) := by
  dsimp only [hostOps1]
  after_results_simp
theorem s1_v11 : StableHlo.after hostOps1 V (Proc.devRef .tc main_v11) = V (Proc.devRef .tc main_v11) := by
  dsimp only [hostOps1]
  after_results_simp

/-! ### The second stretch: the leaky rectifier -/

/-- The rectified scores, when the slope's array holds the slope. -/
theorem s2_v32 (hc : V (Proc.devRef .tc main_cst) = (constant S0 .f32 0x3E4CCCCD#32 : FVec Ideal S0 .f32)) :
    StableHlo.after hostOps1_1 V (Proc.devRef .tc main_v32) = leaky KF.hA (V (Proc.devRef .tc main_v31)) := by
  dsimp only [hostOps1_1]
  after_results_simp
  rw [hc]
  rfl
/-- The index rows, the projections and the zero-one matrix are not written. -/
theorem s2_v14 : StableHlo.after hostOps1_1 V (Proc.devRef .tc main_v14) = V (Proc.devRef .tc main_v14) := by
  dsimp only [hostOps1_1]
  after_results_simp
theorem s2_v16 : StableHlo.after hostOps1_1 V (Proc.devRef .tc main_v16) = V (Proc.devRef .tc main_v16) := by
  dsimp only [hostOps1_1]
  after_results_simp
theorem s2_v12_0 : StableHlo.after hostOps1_1 V (Proc.devRef .tc main_v12_0) = V (Proc.devRef .tc main_v12_0) := by
  dsimp only [hostOps1_1]
  after_results_simp
theorem s2_v12_1 : StableHlo.after hostOps1_1 V (Proc.devRef .tc main_v12_1) = V (Proc.devRef .tc main_v12_1) := by
  dsimp only [hostOps1_1]
  after_results_simp
theorem s2_v11 : StableHlo.after hostOps1_1 V (Proc.devRef .tc main_v11) = V (Proc.devRef .tc main_v11) := by
  dsimp only [hostOps1_1]
  after_results_simp

/-! ### The third stretch: the normalisation, and the gather of the projection -/

/-- The attention weights from the rectified scores and the targets' row. -/
theorem s3_v49 : StableHlo.after hostOps1_2 V (Proc.devRef .tc main_v49)
    = normOf (V (Proc.devRef .tc main_v32)) (V (Proc.devRef .tc main_v16)) := by
  dsimp only [hostOps1_2]
  after_results_simp
  rfl
/-- The projection's rows at the wrapped sources. -/
theorem s3_v56 : StableHlo.after hostOps1_2 V (Proc.devRef .tc main_v56)
    = (Host.gather KF.g128 (V (Proc.devRef .tc main_v12_0)) (wrapCol KF.hI (V (Proc.devRef .tc main_v14))) : FVec Ideal SEx128 .f32) := by
  dsimp only [hostOps1_2]
  after_results_simp
  rfl
/-- The targets' row, the skip projection and the zero-one matrix are not written. -/
theorem s3_v16 : StableHlo.after hostOps1_2 V (Proc.devRef .tc main_v16) = V (Proc.devRef .tc main_v16) := by
  dsimp only [hostOps1_2]
  after_results_simp
theorem s3_v12_1 : StableHlo.after hostOps1_2 V (Proc.devRef .tc main_v12_1) = V (Proc.devRef .tc main_v12_1) := by
  dsimp only [hostOps1_2]
  after_results_simp
theorem s3_v11 : StableHlo.after hostOps1_2 V (Proc.devRef .tc main_v11) = V (Proc.devRef .tc main_v11) := by
  dsimp only [hostOps1_2]
  after_results_simp

/-! ### The fourth stretch: the messages summed into their targets -/

/-- The sum of the messages `main_v57` into the rows the targets' row names, from zero. -/
theorem s4_v60 : StableHlo.after hostOps2 V (Proc.devRef .tc main_v60)
    = (Host.scatterAdd KF.sc128 (broadcastInDim SNx128 ![] Facts₀.bcast_S_S100000x128 (constant S0 .f32 0x00000000#32))
        (col KF.hI (V (Proc.devRef .tc main_v16))) (V (Proc.devRef .tc main_v57)) : FVec Ideal SNx128 .f32) := by
  dsimp only [hostOps2]
  after_results_simp
  rfl
/-- The skip projection is not written. -/
theorem s4_v12_1 : StableHlo.after hostOps2 V (Proc.devRef .tc main_v12_1) = V (Proc.devRef .tc main_v12_1) := by
  dsimp only [hostOps2]
  after_results_simp

end Stretches

/-! ## The arrays at the regions' boundaries -/

/-- The index argument is as launched when region 0 is left: no operation before it writes it and it is no array of
    region 0. -/
theorem w5_arg1 (c : Dev nD) : W5 m ρ c (Proc.devRef .tc main_arg1) = m ((c : Thread nD τ).loc main_arg1) := by
  rw [W5_of_ne m ρ c main_arg1 (by decide)]
  show StableHlo.after hostOps0_3 (StableHlo.after hostOps0_2 (StableHlo.after hostOps0_1 (StableHlo.after hostOps0 (W0 m ρ c))))
    (Proc.devRef .tc main_arg1) = _
  dsimp only [hostOps0_3, hostOps0_2, hostOps0_1, hostOps0]
  after_results_simp

/-- The index rows after the first stretch. -/
theorem w6_v14 (c : Dev nD) : W6 m ρ c (Proc.devRef .tc main_v14) = srcRow KF.hI (m ((c : Thread nD τ).loc main_arg1)) := by
  rw [← w5_arg1 m ρ c]; exact s1_v14 (W5 m ρ c)
theorem w6_v16 (c : Dev nD) : W6 m ρ c (Proc.devRef .tc main_v16) = tgtRow KF.hI (m ((c : Thread nD τ).loc main_arg1)) := by
  rw [← w5_arg1 m ρ c]; exact s1_v16 (W5 m ρ c)

/-- After the second stretch: the index rows, the projection, and the rectified edge scores. -/
theorem w7_v14 (c : Dev nD) : W7 m ρ c (Proc.devRef .tc main_v14) = srcRow KF.hI (m ((c : Thread nD τ).loc main_arg1)) :=
  (s2_v14 (W6 m ρ c)).trans (w6_v14 m ρ c)
theorem w7_v16 (c : Dev nD) : W7 m ρ c (Proc.devRef .tc main_v16) = tgtRow KF.hI (m ((c : Thread nD τ).loc main_arg1)) :=
  (s2_v16 (W6 m ρ c)).trans (w6_v16 m ρ c)
theorem w7_v12_0 (c : Dev nD) : W7 m ρ c (Proc.devRef .tc main_v12_0) = W5 m ρ c (Proc.devRef .tc main_v12_0) :=
  (s2_v12_0 (W6 m ρ c)).trans (s1_v12_0 (W5 m ρ c))
theorem w7_v32 (c : Dev nD) : W7 m ρ c (Proc.devRef .tc main_v32)
    = edgeScore KF.hI KF.hA KF.g8 (W5 m ρ c (Proc.devRef .tc main_v12_2)) (W5 m ρ c (Proc.devRef .tc main_v12_3))
        (m ((c : Thread nD τ).loc main_arg1)) := by
  refine (s2_v32 (W6 m ρ c) (s1_cst (W5 m ρ c))).trans ?_
  rw [show W6 m ρ c (Proc.devRef .tc main_v31) = _ from s1_v31 (W5 m ρ c), w5_arg1 m ρ c]
  rfl

/-- Region 1's attention weights: the shared chain of region 0's two score arrays and the index argument. -/
theorem w8_v49 (c : Dev nD) : W8 m ρ c (Proc.devRef .tc main_v49)
    = attOf KF.hI KF.hA KF.g8 KF.sc8 (W5 m ρ c (Proc.devRef .tc main_v12_2)) (W5 m ρ c (Proc.devRef .tc main_v12_3))
        (m ((c : Thread nD τ).loc main_arg1)) := by
  refine (s3_v49 (W7 m ρ c)).trans ?_
  rw [w7_v32 m ρ c, w7_v16 m ρ c, attOf_eq]
/-- Region 1's gathered projections. -/
theorem w8_v56 (c : Dev nD) : W8 m ρ c (Proc.devRef .tc main_v56)
    = gatherP KF.hI KF.g128 (W5 m ρ c (Proc.devRef .tc main_v12_0)) (m ((c : Thread nD τ).loc main_arg1)) := by
  refine (s3_v56 (W7 m ρ c)).trans ?_
  rw [w7_v12_0 m ρ c, w7_v14 m ρ c]
  rfl
/-- Region 1's zero-one matrix is still what the first host stretches made. -/
theorem w8_v11 (c : Dev nD) : W8 m ρ c (Proc.devRef .tc main_v11) = W4 m ρ c (Proc.devRef .tc main_v11) :=
  (s3_v11 (W7 m ρ c)).trans ((s2_v11 (W6 m ρ c)).trans ((s1_v11 (W5 m ρ c)).trans (W5_of_ne m ρ c main_v11 (by decide))))

/-- The targets' row when region 1 is left: it is no array of region 1, and the third stretch does not write it. -/
theorem w9_v16 (c : Dev nD) : W9 m ρ c (Proc.devRef .tc main_v16) = tgtRow KF.hI (m ((c : Thread nD τ).loc main_arg1)) :=
  (W9_of_ne m ρ c main_v16 (by decide)).trans ((s3_v16 (W7 m ρ c)).trans (w7_v16 m ρ c))

/-- Region 2's aggregate: region 1's messages summed into their targets. -/
theorem w10_v60 (c : Dev nD) : W10 m ρ c (Proc.devRef .tc main_v60)
    = aggOf KF.hI Facts₀.bcast_S_S100000x128 KF.sc128 (W9 m ρ c (Proc.devRef .tc main_v57)) (m ((c : Thread nD τ).loc main_arg1)) := by
  refine (s4_v60 (W9 m ρ c)).trans ?_
  rw [w9_v16 m ρ c]
  rfl
/-- Region 2's skip projection is still what region 0 left. -/
theorem w10_v12_1 (c : Dev nD) : W10 m ρ c (Proc.devRef .tc main_v12_1) = W5 m ρ c (Proc.devRef .tc main_v12_1) :=
  (s4_v12_1 (W9 m ρ c)).trans ((W9_of_ne m ρ c main_v12_1 (by decide)).trans
    ((s3_v12_1 (W7 m ρ c)).trans ((s2_v12_1 (W6 m ρ c)).trans (s1_v12_1 (W5 m ρ c)))))

end Cert.KernelIdeal.KHost1

end
-- ==== Proof.KVal.lean ====
/-
  The kernel's result array at the last boundary, as the kernel's function of the argument arrays: region 2's output
  over region 1's over region 0's, the host stretches between them read by name.
-/
import proofs.«155503_j57080115364429_1_alg».proof.Proof.KReg0
import proofs.«155503_j57080115364429_1_alg».proof.Proof.KReg1
import proofs.«155503_j57080115364429_1_alg».proof.Proof.KReg2
import proofs.«155503_j57080115364429_1_alg».proof.Proof.KHost0
import proofs.«155503_j57080115364429_1_alg».proof.Proof.KHost1

set_option maxRecDepth 16384
noncomputable section

open scoped BigOperators

namespace Cert.KernelIdeal.KVal

open Idealize.ShloMosaic Idealize.ShloMosaic.TcCoe Idealize.SL.Sem Idealize.ShloMosaic.ValueIdx
open Cert.KernelIdeal Cert.KernelIdeal.Gen Cert.Chain Cert.Spec

variable (m : (ℓ : Loc nD τ sig) → Buf (Elt Ideal) ℓ) (ρ : Dev nD → PrngReg)

/-- Region 0's outputs at its exit, from the launch memory. -/
theorem w5_p (c : Dev nD) : W5 m ρ c (Proc.devRef .tc main_v12_0)
    = KF.proj (m ((c : Thread nD τ).loc main_arg0)) (m ((c : Thread nD τ).loc main_arg2)) := by
  refine (W5_arr m ρ c 5).trans ((KReg0.arr_p (V4 m ρ) c).trans ?_)
  show KF.proj (W4 m ρ c (Proc.devRef .tc main_arg0)) (W4 m ρ c (Proc.devRef .tc main_arg2)) = _
  rw [KHost0.w4_arg0, KHost0.w4_arg2]

theorem w5_skip (c : Dev nD) : W5 m ρ c (Proc.devRef .tc main_v12_1)
    = KF.proj (m ((c : Thread nD τ).loc main_arg0)) (m ((c : Thread nD τ).loc main_arg3)) := by
  refine (W5_arr m ρ c 6).trans ((KReg0.arr_skip (V4 m ρ) c).trans ?_)
  show KF.proj (W4 m ρ c (Proc.devRef .tc main_arg0)) (W4 m ρ c (Proc.devRef .tc main_arg3)) = _
  rw [KHost0.w4_arg0, KHost0.w4_arg3]

theorem w5_ssrc (c : Dev nD) : W5 m ρ c (Proc.devRef .tc main_v12_2)
    = KF.score (KF.proj (m ((c : Thread nD τ).loc main_arg0)) (m ((c : Thread nD τ).loc main_arg2))) (m ((c : Thread nD τ).loc main_arg4)) := by
  refine (W5_arr m ρ c 7).trans ((KReg0.arr_ssrc (V4 m ρ) c).trans ?_)
  show mm 100000 128 8 (KF.proj (W4 m ρ c (Proc.devRef .tc main_arg0)) (W4 m ρ c (Proc.devRef .tc main_arg2))) (W4 m ρ c (Proc.devRef .tc main_v7)) = _
  rw [KHost0.w4_arg0, KHost0.w4_arg2, KHost0.w4_v7]

theorem w5_stgt (c : Dev nD) : W5 m ρ c (Proc.devRef .tc main_v12_3)
    = KF.score (KF.proj (m ((c : Thread nD τ).loc main_arg0)) (m ((c : Thread nD τ).loc main_arg2))) (m ((c : Thread nD τ).loc main_arg5)) := by
  refine (W5_arr m ρ c 8).trans ((KReg0.arr_stgt (V4 m ρ) c).trans ?_)
  show mm 100000 128 8 (KF.proj (W4 m ρ c (Proc.devRef .tc main_arg0)) (W4 m ρ c (Proc.devRef .tc main_arg2))) (W4 m ρ c (Proc.devRef .tc main_v10)) = _
  rw [KHost0.w4_arg0, KHost0.w4_arg2, KHost0.w4_v10]

/-- Region 1's output at its exit. -/
theorem w9_msg (c : Dev nD) : W9 m ρ c (Proc.devRef .tc main_v57)
    = KF.msgK (KF.proj (m ((c : Thread nD τ).loc main_arg0)) (m ((c : Thread nD τ).loc main_arg2)))
        (attOf KF.hI KF.hA KF.g8 KF.sc8
          (KF.score (KF.proj (m ((c : Thread nD τ).loc main_arg0)) (m ((c : Thread nD τ).loc main_arg2))) (m ((c : Thread nD τ).loc main_arg4)))
          (KF.score (KF.proj (m ((c : Thread nD τ).loc main_arg0)) (m ((c : Thread nD τ).loc main_arg2))) (m ((c : Thread nD τ).loc main_arg5)))
          (m ((c : Thread nD τ).loc main_arg1)))
        (m ((c : Thread nD τ).loc main_arg1)) := by
  refine (W9_arr m ρ c 3).trans ((KReg1.arr_msg (V8 m ρ) c).trans ?_)
  show KF.msgOf (W8 m ρ c (Proc.devRef .tc main_v56)) (W8 m ρ c (Proc.devRef .tc main_v49)) (W8 m ρ c (Proc.devRef .tc main_v11)) = _
  rw [KHost1.w8_v56, KHost1.w8_v49, KHost1.w8_v11, KHost0.w4_v11, w5_p, w5_ssrc, w5_stgt]
  rfl

/-- THE RESULT ARRAY at the last boundary is the kernel's function of the arguments. -/
theorem w11_out (c : Dev nD) : W11 m ρ c (Proc.devRef .tc main_v61)
    = KF.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 2).trans ((KReg2.arr_out (V10 m ρ) c).trans ?_)
  show KF.finOf (W10 m ρ c (Proc.devRef .tc main_v60)) (W10 m ρ c (Proc.devRef .tc main_v12_1)) = _
  rw [KHost1.w10_v60, KHost1.w10_v12_1, w9_msg, w5_skip]
  rfl

end Cert.KernelIdeal.KVal

end
-- ==== Proof.RFacts.lean ====
/-
  The reference's side conditions packaged for the shared chains, and the reference's result as one function of the
  argument arrays: its @main, stage by stage.
-/
import proofs.«155503_j57080115364429_1_alg».proof.Proof.Gen.ReferenceIdeal
import proofs.«155503_j57080115364429_1_alg».proof.Proof.Chain

noncomputable section

open scoped BigOperators

namespace Cert.ReferenceIdeal.RF

open Idealize.ShloMosaic Cert.ReferenceIdeal Cert.ReferenceIdeal.Facts₀ Cert.Chain

theorem hI : IdxFacts := ⟨slices_S2x1600000_S1x1600000_0_0, slices_S2x1600000_S1x1600000_1_0, shapeCasts_S1x1600000_S1600000,
  bcast_S_S1600000, bcast_S1600000_S1600000x1_0⟩
theorem hA : AttFacts := ⟨bcast_S_S1600000x8, bcast_S_S100000x8, reducesTo_S1600000x8_S_d0_1, h_S_⟩
theorem hR : RefFacts := ⟨shapeCasts_S100000x128_S100000x8x16, shapeCasts_S100000x8x16_S100000x128, bcast_S1x8x16_S100000x8x16_0_1_2,
  reducesTo_S100000x8x16_S100000x8_d2, h_S_, bcast_S1600000x8_S1600000x8x1_0_1, bcast_S1600000x8x1_S1600000x8x16_0_1_2,
  bcast_S_S100000x8x16, bcast_S_S100000x128⟩

abbrev dotN : DotDims SNx128 S128x128 SNx128 := dot_S100000x128_S128x128_S100000x128_1_0_0_1_n_n
abbrev g8 : GatherDims SNx8 SEx1 SEx8 := gather_S100000x8_S1600000x1_S1600000x8_1_0_n_n_0_1_18
abbrev sc8 : ScatterDims SNx8 SEx1 SEx8 := scatter_S100000x8_S1600000x1_S1600000x8_1_0_0_1
abbrev g3 : GatherDims SNx8x16 SEx1 SEx8x16 := gather_S100000x8x16_S1600000x1_S1600000x8x16_12_0_n_n_0_1_1816
abbrev sc3 : ScatterDims SNx8x16 SEx1 SEx8x16 := scatter_S100000x8x16_S1600000x1_S1600000x8x16_12_0_0_1

/-- The reference's result as a function of the argument arrays. -/
def outR (x : FVec Ideal SNx128 .f32) (ei : IVec S2xE 32) (wp ws : FVec Ideal S128x128 .f32) (aS aT : FVec Ideal S1x8x16 .f32) :
    FVec Ideal SNx128 .f32 :=
  tailR hI hR g3 sc3 (projR dotN x wp)
    (attOf hI hA g8 sc8 (scoreR hR (projR dotN x wp) aS) (scoreR hR (projR dotN x wp) aT) ei) ei (projR dotN x ws)

end Cert.ReferenceIdeal.RF

end
-- ==== Proof.RRun.lean ====
/-
  The reference's run, read back: every weakly fair execution of its @main (host operations only, three outlined
  functions inlined at their calls) terminates, nothing faulting, with the result array at the reference's function of
  the argument arrays and the arguments as launched.
-/
import proofs.«155503_j57080115364429_1_alg».proof.Proof.Gen.ReferenceIdeal
import proofs.«155503_j57080115364429_1_alg».proof.Proof.RFacts
import Idealize.ShloMosaic.Lib.StableHlo.Run
import Idealize.ShloMosaic.Lib.Pipeline.Frame
import Idealize.ShloMosaic.Adequacy
import Idealize.ShloMosaic.Init

set_option maxRecDepth 16384
noncomputable section

open scoped BigOperators

namespace Cert.ReferenceIdeal.RRun

open Idealize.ShloMosaic Idealize.ShloMosaic.TcCoe Idealize.SL.Sem
open Cert.ReferenceIdeal Cert.Chain

section Aux

open Cert.ReferenceIdeal.Facts₀

variable {F : FTy → Type} [FloatOps F]

/-- The two projections' first, the head scores of sources and targets, and the two rows of the index array (statements 1 to 14). -/
abbrev k1 : List (HloOp τ sig (Elt F)) :=
  [
    StableHlo.binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.reshape main_v0 main_v1 rfl shapeCasts_S100000x128_S100000x8x16,
    StableHlo.unary main_arg4 main_v2 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v1 main_v2 main_v3 (mulf : (⟨S100000x8x16, .f32⟩ : BufTy).Contents (Elt F) → (⟨S100000x8x16, .f32⟩ : BufTy).Contents (Elt F) → (⟨S100000x8x16, .f32⟩ : BufTy).Contents (Elt F)),
    StableHlo.nullary main_cst (constant S_ .f32 0x00000000#32),
    StableHlo.binary main_v3 main_cst main_v4 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    StableHlo.unary main_arg5 main_v5 (broadcastInDim S100000x8x16 ![0, 1, 2] bcast_S1x8x16_S100000x8x16_0_1_2 : (⟨S1x8x16, .f32⟩ : BufTy).Contents (Elt F) → (⟨S100000x8x16, .f32⟩ : BufTy).Contents (Elt F)),
    StableHlo.binary main_v1 main_v5 main_v6 (mulf : (⟨S100000x8x16, .f32⟩ : BufTy).Contents (Elt F) → (⟨S100000x8x16, .f32⟩ : BufTy).Contents (Elt F) → (⟨S100000x8x16, .f32⟩ : BufTy).Contents (Elt F)),
    StableHlo.nullary main_cst_0 (constant S_ .f32 0x00000000#32),
    StableHlo.binary main_v6 main_cst_0 main_v7 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    StableHlo.unary main_arg1 main_v8 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v8 main_v9 rfl shapeCasts_S1x1600000_S1600000,
    StableHlo.unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v10 main_v11 rfl shapeCasts_S1x1600000_S1600000 ]

/-- The wrapped index columns, the gathered head scores, their sum and the leaky rectifier's seven operations in place of its call (statements 15 to 35). -/
abbrev k2 : List (HloOp τ sig (Elt F)) :=
  [
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v9 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 100000#32),
    StableHlo.unary main_c_1 main_v14 (broadcastInDim S1600000 ![] bcast_S_S1600000 : (⟨S_, .i32⟩ : BufTy).Contents (Elt F) → (⟨S1600000, .i32⟩ : BufTy).Contents (Elt F)),
    StableHlo.binary main_v9 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v9 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v4 main_v17 main_v18 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    StableHlo.nullary main_c_2 (constantI S_ 32 0#32),
    StableHlo.unary main_c_2 main_v19 (broadcastInDim S1600000 ![] bcast_S_S1600000 : (⟨S_, .i32⟩ : BufTy).Contents (Elt F) → (⟨S1600000, .i32⟩ : BufTy).Contents (Elt F)),
    StableHlo.binary main_v11 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v21 (broadcastInDim S1600000 ![] bcast_S_S1600000 : (⟨S_, .i32⟩ : BufTy).Contents (Elt F) → (⟨S1600000, .i32⟩ : BufTy).Contents (Elt F)),
    StableHlo.binary main_v11 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v11 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v7 main_v24 main_v25 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    StableHlo.binary main_v18 main_v25 main_v26 (addf : (⟨S1600000x8, .f32⟩ : BufTy).Contents (Elt F) → (⟨S1600000x8, .f32⟩ : BufTy).Contents (Elt F) → (⟨S1600000x8, .f32⟩ : BufTy).Contents (Elt F)),
    StableHlo.nullary main_cst_4 (constant S_ .f32 0x3E4CCCCD#32),
    StableHlo.TRef.nullary main_call0.cst (constant S_ .f32 0x00000000#32),
    StableHlo.TRef.unary main_call0.cst main_call0.v0 (broadcastInDim S1600000x8 ![] bcast_S_S1600000x8),
    StableHlo.TRef.binary (.of main_v26 : StableHlo.TRef sig ⟨S1600000x8, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S1600000x8 ![] bcast_S_S1600000x8),
    StableHlo.TRef.binary main_call0.v3 (.of main_v26 : StableHlo.TRef sig ⟨S1600000x8, .f32⟩) main_call0.v4 mulf,
    StableHlo.TRef.ternary main_call0.v1 (.of main_v26 : StableHlo.TRef sig ⟨S1600000x8, .f32⟩) main_call0.v4 main_call0.call0.v0 select ]

/-- The global maximum taken off and the exponential (statements 36 to 40). -/
abbrev k3 : List (HloOp τ sig (Elt F)) :=
  [
    StableHlo.nullary main_cst_5 (constant S_ .f32 0xFF800000#32),
    StableHlo.binary main_v27 main_cst_5 main_v28 ((fun x v => Host.reduce FloatOps.maximumf x v reducesTo_S1600000x8_S_d0_1 h_S_) : (⟨S1600000x8, .f32⟩ : BufTy).Contents (Elt F) → (⟨S_, .f32⟩ : BufTy).Contents (Elt F) → (⟨S_, .f32⟩ : BufTy).Contents (Elt F)),
    StableHlo.unary main_v28 main_v29 (broadcastInDim S1600000x8 ![] bcast_S_S1600000x8 : (⟨S_, .f32⟩ : BufTy).Contents (Elt F) → (⟨S1600000x8, .f32⟩ : BufTy).Contents (Elt F)),
    StableHlo.binary main_v27 main_v29 main_v30 (subf : (⟨S1600000x8, .f32⟩ : BufTy).Contents (Elt F) → (⟨S1600000x8, .f32⟩ : BufTy).Contents (Elt F) → (⟨S1600000x8, .f32⟩ : BufTy).Contents (Elt F)),
    StableHlo.unary main_v30 main_v31 (Host.exp : (⟨S1600000x8, .f32⟩ : BufTy).Contents (Elt F) → (⟨S1600000x8, .f32⟩ : BufTy).Contents (Elt F)) ]

/-- The exponentials summed into their targets, read back at the targets, and the division (statements 41 to 57). -/
abbrev k4 : List (HloOp τ sig (Elt F)) :=
  [
    StableHlo.nullary main_cst_6 (constant S_ .f32 0x00000000#32),
    StableHlo.unary main_cst_6 main_v32 (broadcastInDim S100000x8 ![] bcast_S_S100000x8 : (⟨S_, .f32⟩ : BufTy).Contents (Elt F) → (⟨S100000x8, .f32⟩ : BufTy).Contents (Elt F)),
    StableHlo.unary main_v11 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)),
    StableHlo.nullary main_c_7 (constantI S_ 32 0#32),
    StableHlo.unary main_c_7 main_v35 (broadcastInDim S1600000 ![] bcast_S_S1600000 : (⟨S_, .i32⟩ : BufTy).Contents (Elt F) → (⟨S1600000, .i32⟩ : BufTy).Contents (Elt F)),
    StableHlo.binary main_v11 main_v35 main_v36 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v37 (broadcastInDim S1600000 ![] bcast_S_S1600000 : (⟨S_, .i32⟩ : BufTy).Contents (Elt F) → (⟨S1600000, .i32⟩ : BufTy).Contents (Elt F)),
    StableHlo.binary main_v11 main_v37 main_v38 (addi : (⟨S1600000, .i32⟩ : BufTy).Contents (Elt F) → (⟨S1600000, .i32⟩ : BufTy).Contents (Elt F) → (⟨S1600000, .i32⟩ : BufTy).Contents (Elt F)),
    StableHlo.ternary main_v36 main_v38 main_v11 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v39 main_v40 (broadcastInDim S1600000x1 ![0] bcast_S1600000_S1600000x1_0 : (⟨S1600000, .i32⟩ : BufTy).Contents (Elt F) → (⟨S1600000x1, .i32⟩ : BufTy).Contents (Elt F)),
    StableHlo.binary main_v34 main_v40 main_v41 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    StableHlo.nullary main_cst_9 (constant S_ .f32 0x24E69595#32),
    StableHlo.unary main_cst_9 main_v42 (broadcastInDim S1600000x8 ![] bcast_S_S1600000x8 : (⟨S_, .f32⟩ : BufTy).Contents (Elt F) → (⟨S1600000x8, .f32⟩ : BufTy).Contents (Elt F)),
    StableHlo.binary main_v41 main_v42 main_v43 (addf : (⟨S1600000x8, .f32⟩ : BufTy).Contents (Elt F) → (⟨S1600000x8, .f32⟩ : BufTy).Contents (Elt F) → (⟨S1600000x8, .f32⟩ : BufTy).Contents (Elt F)),
    StableHlo.binary main_v31 main_v43 main_v44 (Host.divf : (⟨S1600000x8, .f32⟩ : BufTy).Contents (Elt F) → (⟨S1600000x8, .f32⟩ : BufTy).Contents (Elt F) → (⟨S1600000x8, .f32⟩ : BufTy).Contents (Elt F)) ]

/-- The first three operations of the sources' wrapped column (statements 58 to 60, the end of the first window). -/
abbrev k5a : List (HloOp τ sig (Elt F)) :=
  [
    StableHlo.nullary main_c_10 (constantI S_ 32 0#32),
    StableHlo.unary main_c_10 main_v45 (broadcastInDim S1600000 ![] bcast_S_S1600000 : (⟨S_, .i32⟩ : BufTy).Contents (Elt F) → (⟨S1600000, .i32⟩ : BufTy).Contents (Elt F)),
    StableHlo.binary main_v9 main_v45 main_v46 (cmpi .slt : (⟨S1600000, .i32⟩ : BufTy).Contents (Elt F) → (⟨S1600000, .i32⟩ : BufTy).Contents (Elt F) → (⟨S1600000, .i1⟩ : BufTy).Contents (Elt F)) ]

/-- The rest of that column, the weighted messages summed into their targets, the skip projection and the sum flattened (statements 61 to 77). -/
abbrev k5b : List (HloOp τ sig (Elt F)) :=
  [
    StableHlo.nullary main_c_11 (constantI S_ 32 100000#32),
    StableHlo.unary main_c_11 main_v47 (broadcastInDim S1600000 ![] bcast_S_S1600000 : (⟨S_, .i32⟩ : BufTy).Contents (Elt F) → (⟨S1600000, .i32⟩ : BufTy).Contents (Elt F)),
    StableHlo.binary main_v9 main_v47 main_v48 (addi : (⟨S1600000, .i32⟩ : BufTy).Contents (Elt F) → (⟨S1600000, .i32⟩ : BufTy).Contents (Elt F) → (⟨S1600000, .i32⟩ : BufTy).Contents (Elt F)),
    StableHlo.ternary main_v46 main_v48 main_v9 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v49 main_v50 (broadcastInDim S1600000x1 ![0] bcast_S1600000_S1600000x1_0 : (⟨S1600000, .i32⟩ : BufTy).Contents (Elt F) → (⟨S1600000x1, .i32⟩ : BufTy).Contents (Elt F)),
    StableHlo.binary main_v1 main_v50 main_v51 ((fun x i => Host.gather gather_S100000x8x16_S1600000x1_S1600000x8x16_12_0_n_n_0_1_1816 x i) : (⟨S100000x8x16, .f32⟩ : BufTy).Contents (Elt F) → (⟨S1600000x1, .i32⟩ : BufTy).Contents (Elt F) → (⟨S1600000x8x16, .f32⟩ : BufTy).Contents (Elt F)),
    StableHlo.unary main_v44 main_v52 (broadcastInDim S1600000x8x1 ![0, 1] bcast_S1600000x8_S1600000x8x1_0_1 : (⟨S1600000x8, .f32⟩ : BufTy).Contents (Elt F) → (⟨S1600000x8x1, .f32⟩ : BufTy).Contents (Elt F)),
    StableHlo.unary main_v52 main_v53 (broadcastInDim S1600000x8x16 ![0, 1, 2] bcast_S1600000x8x1_S1600000x8x16_0_1_2 : (⟨S1600000x8x1, .f32⟩ : BufTy).Contents (Elt F) → (⟨S1600000x8x16, .f32⟩ : BufTy).Contents (Elt F)),
    StableHlo.binary main_v51 main_v53 main_v54 (mulf : (⟨S1600000x8x16, .f32⟩ : BufTy).Contents (Elt F) → (⟨S1600000x8x16, .f32⟩ : BufTy).Contents (Elt F) → (⟨S1600000x8x16, .f32⟩ : BufTy).Contents (Elt F)),
    StableHlo.nullary main_cst_12 (constant S_ .f32 0x00000000#32),
    StableHlo.unary main_cst_12 main_v55 (broadcastInDim S100000x8x16 ![] bcast_S_S100000x8x16 : (⟨S_, .f32⟩ : BufTy).Contents (Elt F) → (⟨S100000x8x16, .f32⟩ : BufTy).Contents (Elt F)),
    StableHlo.unary main_v11 main_v56 (broadcastInDim S1600000x1 ![0] bcast_S1600000_S1600000x1_0 : (⟨S1600000, .i32⟩ : BufTy).Contents (Elt F) → (⟨S1600000x1, .i32⟩ : BufTy).Contents (Elt F)),
    StableHlo.ternary main_v55 main_v56 main_v54 main_v57 ((fun x i u => Host.scatterAdd scatter_S100000x8x16_S1600000x1_S1600000x8x16_12_0_0_1 x i u) : (⟨S100000x8x16, .f32⟩ : BufTy).Contents (Elt F) → (⟨S1600000x1, .i32⟩ : BufTy).Contents (Elt F) → (⟨S1600000x8x16, .f32⟩ : BufTy).Contents (Elt F) → (⟨S100000x8x16, .f32⟩ : BufTy).Contents (Elt F)),
    StableHlo.binary main_arg0 main_arg3 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.reshape main_v58 main_v59 rfl shapeCasts_S100000x128_S100000x8x16,
    StableHlo.binary main_v57 main_v59 main_v60 (addf : (⟨S100000x8x16, .f32⟩ : BufTy).Contents (Elt F) → (⟨S100000x8x16, .f32⟩ : BufTy).Contents (Elt F) → (⟨S100000x8x16, .f32⟩ : BufTy).Contents (Elt F)),
    StableHlo.reshape main_v60 main_v61 rfl shapeCasts_S100000x8x16_S100000x128 ]

/-- The exponential linear unit's fifteen operations in place of its call (statement 78). -/
abbrev k6 : List (HloOp τ sig (Elt F)) :=
  [
    StableHlo.TRef.nullary main_call1.cst (constant S_ .f32 0x00000000#32),
    StableHlo.TRef.unary main_call1.cst main_call1.v0 (broadcastInDim S100000x128 ![] bcast_S_S100000x128),
    StableHlo.TRef.binary (.of main_v61 : StableHlo.TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v61 : StableHlo.TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v61 : StableHlo.TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v61 : StableHlo.TRef sig ⟨S100000x128, .f32⟩) main_call1.v7 main_call1.call1.v0 select ]

/-- The first window's line (66 operations) and the second's (32). -/
abbrev ops0 : List (HloOp τ sig (Elt F)) := k1 ++ k2 ++ k3 ++ k4 ++ k5a
abbrev ops1 : List (HloOp τ sig (Elt F)) := k5b ++ k6

set_option maxRecDepth 4096 in
set_option maxHeartbeats 4000000 in
/-- The first window is its straight line: the called functions unfolded at the call, the sequencing reassociated. -/
theorem main_part0_eq (c : Dev nD) : main_part0 (F := F) c = StableHlo.seq ops0 := by
  simp only [main_part0, fn_leaky_relu.body, fn_where.body, ops0, StableHlo.seq_append, StableHlo.seq, bind_assoc, pure_bind]
  rfl

set_option maxRecDepth 4096 in
set_option maxHeartbeats 4000000 in
/-- The second window likewise. -/
theorem main_part1_eq (c : Dev nD) : main_part1 (F := F) c = StableHlo.seq ops1 := by
  simp only [main_part1, fn_elu.body, fn_where_0.body, fn_where_1.body, ops1, StableHlo.seq_append, StableHlo.seq, bind_assoc, pure_bind]

/-- @main runs the two windows in order: the concatenated line. -/
theorem main_eq (c : Dev nD) : main (F := F) c = StableHlo.seq (ops0 ++ ops1) := by
  rw [StableHlo.seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun a h => (List.mem_append.mp h).elim
    (List.forall_iff_forall_mem.mp h₁ a) (List.forall_iff_forall_mem.mp h₂ a)

theorem mem_app {α : Type} {p : α → Prop} {l₁ l₂ : List α} (h₁ : ∀ a ∈ l₁, p a) (h₂ : ∀ a ∈ l₂, p a) : ∀ a ∈ l₁ ++ l₂, p a :=
  fun a h => (List.mem_append.mp h).elim (h₁ a) (h₂ a)

theorem k1_sub : (k1 : List (HloOp τ sig (Elt F))).Forall fun op => op.bufs ⊆ StableHlo.tcRefs τ sig :=
  ⟨
    StableHlo.binary_bufs_sub .., StableHlo.reshape_bufs_sub .., StableHlo.unary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub ..,
    StableHlo.unary_bufs_sub .., StableHlo.reshape_bufs_sub .., StableHlo.unary_bufs_sub .., StableHlo.reshape_bufs_sub ..⟩

theorem k2_sub : (k2 : List (HloOp τ sig (Elt F))).Forall fun op => op.bufs ⊆ StableHlo.tcRefs τ sig :=
  ⟨
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.nullary_bufs_sub ..,
    StableHlo.nullary_bufs_sub .., StableHlo.unary_bufs_sub .., StableHlo.binary_bufs_sub .., StableHlo.unary_bufs_sub .., StableHlo.unary_bufs_sub ..,
    StableHlo.binary_bufs_sub .., StableHlo.ternary_bufs_sub ..⟩

theorem k3_sub : (k3 : List (HloOp τ sig (Elt F))).Forall fun op => op.bufs ⊆ StableHlo.tcRefs τ sig :=
  ⟨
    StableHlo.nullary_bufs_sub .., StableHlo.binary_bufs_sub .., StableHlo.unary_bufs_sub .., StableHlo.binary_bufs_sub .., StableHlo.unary_bufs_sub ..⟩

theorem k4_sub : (k4 : List (HloOp τ sig (Elt F))).Forall fun op => op.bufs ⊆ StableHlo.tcRefs τ sig :=
  ⟨
    StableHlo.nullary_bufs_sub .., StableHlo.unary_bufs_sub .., StableHlo.unary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub ..,
    StableHlo.binary_bufs_sub .., StableHlo.binary_bufs_sub ..⟩

theorem k5a_sub : (k5a : List (HloOp τ sig (Elt F))).Forall fun op => op.bufs ⊆ StableHlo.tcRefs τ sig :=
  ⟨
    StableHlo.nullary_bufs_sub .., StableHlo.unary_bufs_sub .., StableHlo.binary_bufs_sub ..⟩

theorem k5b_sub : (k5b : List (HloOp τ sig (Elt F))).Forall fun op => op.bufs ⊆ StableHlo.tcRefs τ sig :=
  ⟨
    StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.binary_bufs_sub .., StableHlo.reshape_bufs_sub ..,
    StableHlo.binary_bufs_sub .., StableHlo.reshape_bufs_sub ..⟩

theorem k6_sub : (k6 : List (HloOp τ sig (Elt F))).Forall fun op => op.bufs ⊆ StableHlo.tcRefs τ sig :=
  ⟨
    StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.nullary_bufs_sub .., StableHlo.unary_bufs_sub .., StableHlo.binary_bufs_sub .., StableHlo.ternary_bufs_sub ..⟩

theorem ops_sub : (ops0 ++ ops1 : List (HloOp τ sig (Elt F))).Forall fun op => op.bufs ⊆ StableHlo.tcRefs τ sig :=
  forall_app (forall_app (forall_app (forall_app (forall_app k1_sub k2_sub) k3_sub) k4_sub) k5a_sub) (forall_app k5b_sub k6_sub)

theorem k1_fresh : ∀ op ∈ (k1 : List (HloOp τ sig (Elt F))), op.fresh = ∅ := by
  intro _ h; (repeat (cases h with | head => rfl | tail _ h => ?_)); exact nomatch h

theorem k2_fresh : ∀ op ∈ (k2 : List (HloOp τ sig (Elt F))), op.fresh = ∅ := by
  intro _ h; (repeat (cases h with | head => rfl | tail _ h => ?_)); exact nomatch h

theorem k3_fresh : ∀ op ∈ (k3 : List (HloOp τ sig (Elt F))), op.fresh = ∅ := by
  intro _ h; (repeat (cases h with | head => rfl | tail _ h => ?_)); exact nomatch h

theorem k4_fresh : ∀ op ∈ (k4 : List (HloOp τ sig (Elt F))), op.fresh = ∅ := by
  intro _ h; (repeat (cases h with | head => rfl | tail _ h => ?_)); exact nomatch h

theorem k5a_fresh : ∀ op ∈ (k5a : List (HloOp τ sig (Elt F))), op.fresh = ∅ := by
  intro _ h; (repeat (cases h with | head => rfl | tail _ h => ?_)); exact nomatch h

theorem k5b_fresh : ∀ op ∈ (k5b : List (HloOp τ sig (Elt F))), op.fresh = ∅ := by
  intro _ h; (repeat (cases h with | head => rfl | tail _ h => ?_)); exact nomatch h

theorem k6_fresh : ∀ op ∈ (k6 : List (HloOp τ sig (Elt F))), op.fresh = ∅ := by
  intro _ h; (repeat (cases h with | head => rfl | tail _ h => ?_)); exact nomatch h

/-- Every operation of the line determines its results. -/
theorem ops_fresh : ∀ op ∈ (ops0 ++ ops1 : List (HloOp τ sig (Elt F))), op.fresh = ∅ :=
  mem_app (mem_app (mem_app (mem_app (mem_app k1_fresh k2_fresh) k3_fresh) k4_fresh) k5a_fresh) (mem_app k5b_fresh k6_fresh)

/-! ## The value, stretch by stretch

Each lemma: from buffer contents W that hold named values at the buffers a stretch reads, the contents after the stretch
hold the next named value at the buffer it ends in, and the values still to be read later where they were. -/

section Steps

variable {x : FVec Ideal SNx128 .f32} {ei : IVec S2xE 32} {wp ws : FVec Ideal S128x128 .f32} {aS aT : FVec Ideal S1x8x16 .f32}
  {p : FVec Ideal SNx128 .f32} {ss st : FVec Ideal SNx8 .f32} {att : FVec Ideal SEx8 .f32}

set_option maxHeartbeats 1000000 in
/-- The projection in heads, the two head scores and the two index rows, from the arguments. -/
theorem step1 (W : Valuation τ sig (Elt Ideal))
    (h0 : W (Proc.devRef .tc main_arg0) = x) (h1 : W (Proc.devRef .tc main_arg1) = ei) (h2 : W (Proc.devRef .tc main_arg2) = wp) (h3 : W (Proc.devRef .tc main_arg3) = ws)
    (h4 : W (Proc.devRef .tc main_arg4) = aS) (h5 : W (Proc.devRef .tc main_arg5) = aT) :
    StableHlo.after (k1 (F := Ideal)) W (Proc.devRef .tc main_v1) = shapeCast SNx8x16 (projR RF.dotN x wp) RF.hR.c23
    ∧ StableHlo.after (k1 (F := Ideal)) W (Proc.devRef .tc main_v4) = scoreR RF.hR (projR RF.dotN x wp) aS
    ∧ StableHlo.after (k1 (F := Ideal)) W (Proc.devRef .tc main_v7) = scoreR RF.hR (projR RF.dotN x wp) aT
    ∧ StableHlo.after (k1 (F := Ideal)) W (Proc.devRef .tc main_v9) = srcRow RF.hI ei
    ∧ StableHlo.after (k1 (F := Ideal)) W (Proc.devRef .tc main_v11) = tgtRow RF.hI ei
    ∧ StableHlo.after (k1 (F := Ideal)) W (Proc.devRef .tc main_arg0) = x
    ∧ StableHlo.after (k1 (F := Ideal)) W (Proc.devRef .tc main_arg3) = ws := by
  subst h0 h1 h2 h3 h4 h5
  refine ⟨?_, ?_, ?_, ?_, ?_, ?_, ?_⟩ <;> after_results_simp <;> rfl

set_option maxHeartbeats 1000000 in
/-- The rectified edge scores. -/
theorem step2 (W : Valuation τ sig (Elt Ideal))
    (h1 : W (Proc.devRef .tc main_v1) = shapeCast SNx8x16 p RF.hR.c23) (h4 : W (Proc.devRef .tc main_v4) = ss) (h7 : W (Proc.devRef .tc main_v7) = st)
    (h9 : W (Proc.devRef .tc main_v9) = srcRow RF.hI ei) (h11 : W (Proc.devRef .tc main_v11) = tgtRow RF.hI ei)
    (h0 : W (Proc.devRef .tc main_arg0) = x) (h3 : W (Proc.devRef .tc main_arg3) = ws) :
    StableHlo.after (k2 (F := Ideal)) W (Proc.devRef .tc main_v27) = edgeScore RF.hI RF.hA RF.g8 ss st ei
    ∧ StableHlo.after (k2 (F := Ideal)) W (Proc.devRef .tc main_v1) = shapeCast SNx8x16 p RF.hR.c23
    ∧ StableHlo.after (k2 (F := Ideal)) W (Proc.devRef .tc main_v9) = srcRow RF.hI ei
    ∧ StableHlo.after (k2 (F := Ideal)) W (Proc.devRef .tc main_v11) = tgtRow RF.hI ei
    ∧ StableHlo.after (k2 (F := Ideal)) W (Proc.devRef .tc main_arg0) = x
    ∧ StableHlo.after (k2 (F := Ideal)) W (Proc.devRef .tc main_arg3) = ws := by
  subst h4 h7 h0 h3
  refine ⟨?_, ?_, ?_, ?_, ?_, ?_⟩
  · after_results_simp
    rw [h9, h11]
    rfl
  all_goals after_results_simp
  all_goals assumption

set_option maxHeartbeats 1000000 in
/-- Their exponentials after the global maximum is taken off. -/
theorem step3 (W : Valuation τ sig (Elt Ideal))
    (h27 : W (Proc.devRef .tc main_v27) = edgeScore RF.hI RF.hA RF.g8 ss st ei)
    (h1 : W (Proc.devRef .tc main_v1) = shapeCast SNx8x16 p RF.hR.c23)
    (h9 : W (Proc.devRef .tc main_v9) = srcRow RF.hI ei) (h11 : W (Proc.devRef .tc main_v11) = tgtRow RF.hI ei)
    (h0 : W (Proc.devRef .tc main_arg0) = x) (h3 : W (Proc.devRef .tc main_arg3) = ws) :
    StableHlo.after (k3 (F := Ideal)) W (Proc.devRef .tc main_v31) = edgeExp RF.hI RF.hA RF.g8 ss st ei
    ∧ StableHlo.after (k3 (F := Ideal)) W (Proc.devRef .tc main_v1) = shapeCast SNx8x16 p RF.hR.c23
    ∧ StableHlo.after (k3 (F := Ideal)) W (Proc.devRef .tc main_v9) = srcRow RF.hI ei
    ∧ StableHlo.after (k3 (F := Ideal)) W (Proc.devRef .tc main_v11) = tgtRow RF.hI ei
    ∧ StableHlo.after (k3 (F := Ideal)) W (Proc.devRef .tc main_arg0) = x
    ∧ StableHlo.after (k3 (F := Ideal)) W (Proc.devRef .tc main_arg3) = ws := by
  subst h0 h3
  refine ⟨?_, ?_, ?_, ?_, ?_, ?_⟩
  · after_results_simp
    rw [h27]
    rfl
  all_goals after_results_simp
  all_goals assumption

set_option maxHeartbeats 1000000 in
/-- The attention weights. -/
theorem step4 (W : Valuation τ sig (Elt Ideal))
    (h31 : W (Proc.devRef .tc main_v31) = edgeExp RF.hI RF.hA RF.g8 ss st ei)
    (h1 : W (Proc.devRef .tc main_v1) = shapeCast SNx8x16 p RF.hR.c23)
    (h9 : W (Proc.devRef .tc main_v9) = srcRow RF.hI ei) (h11 : W (Proc.devRef .tc main_v11) = tgtRow RF.hI ei)
    (h0 : W (Proc.devRef .tc main_arg0) = x) (h3 : W (Proc.devRef .tc main_arg3) = ws) :
    StableHlo.after (k4 (F := Ideal)) W (Proc.devRef .tc main_v44) = attOf RF.hI RF.hA RF.g8 RF.sc8 ss st ei
    ∧ StableHlo.after (k4 (F := Ideal)) W (Proc.devRef .tc main_v1) = shapeCast SNx8x16 p RF.hR.c23
    ∧ StableHlo.after (k4 (F := Ideal)) W (Proc.devRef .tc main_v9) = srcRow RF.hI ei
    ∧ StableHlo.after (k4 (F := Ideal)) W (Proc.devRef .tc main_v11) = tgtRow RF.hI ei
    ∧ StableHlo.after (k4 (F := Ideal)) W (Proc.devRef .tc main_arg0) = x
    ∧ StableHlo.after (k4 (F := Ideal)) W (Proc.devRef .tc main_arg3) = ws := by
  subst h0 h3
  refine ⟨?_, ?_, ?_, ?_, ?_, ?_⟩
  · after_results_simp
    rw [h31, h11]
    rfl
  all_goals after_results_simp
  all_goals assumption

set_option maxHeartbeats 1000000 in
/-- The exponential linear unit of whatever its operand buffer holds. -/
theorem step6 (W : Valuation τ sig (Elt Ideal)) :
    StableHlo.after (k6 (F := Ideal)) W (Proc.devRef .tc main_v62) = eluR RF.hR (W (Proc.devRef .tc main_v61)) := by
  after_results_simp
  rfl

set_option maxHeartbeats 1000000 in
/-- The last stretch: the weighted messages summed into their targets plus the skip projection, flattened, through the
    exponential linear unit. -/
theorem step56 (W : Valuation τ sig (Elt Ideal))
    (h44 : W (Proc.devRef .tc main_v44) = att)
    (h1 : W (Proc.devRef .tc main_v1) = shapeCast SNx8x16 p RF.hR.c23)
    (h9 : W (Proc.devRef .tc main_v9) = srcRow RF.hI ei) (h11 : W (Proc.devRef .tc main_v11) = tgtRow RF.hI ei)
    (h0 : W (Proc.devRef .tc main_arg0) = x) (h3 : W (Proc.devRef .tc main_arg3) = ws) :
    StableHlo.after (k6 (F := Ideal)) (StableHlo.after (k5b (F := Ideal)) (StableHlo.after (k5a (F := Ideal)) W)) (Proc.devRef .tc main_v62)
      = tailR RF.hI RF.hR RF.g3 RF.sc3 p att ei (projR RF.dotN x ws) := by
  subst h44 h0 h3
  rw [step6]
  after_results_simp
  rw [h1, h9, h11]
  rfl

end Steps

set_option maxHeartbeats 1000000 in
/-- The result buffer after the whole line: the reference's function of the arguments. -/
theorem out_eq (V : Valuation τ sig (Elt Ideal)) :
    StableHlo.after (ops0 (F := Ideal) ++ ops1) V (Proc.devRef .tc main_v62)
      = RF.outR (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops0, ops1, StableHlo.after_append]
  obtain ⟨a1, a4, a7, a9, a11, a0, a3⟩ := step1 V rfl rfl rfl rfl rfl rfl
  obtain ⟨b27, b1, b9, b11, b0, b3⟩ := step2 _ a1 a4 a7 a9 a11 a0 a3
  obtain ⟨c31, c1, c9, c11, c0, c3⟩ := step3 _ b27 b1 b9 b11 b0 b3
  obtain ⟨d44, d1, d9, d11, d0, d3⟩ := step4 _ c31 c1 c9 c11 c0 c3
  exact step56 _ d44 d1 d9 d11 d0 d3

set_option maxHeartbeats 4000000 in
/-- No operation of the line writes an argument. -/
theorem arg_eq (V : Valuation τ sig (Elt Ideal)) (r : Ref sig .tc)
    (hr : r = main_arg0 ∨ r = main_arg1 ∨ r = main_arg2 ∨ r = main_arg3 ∨ r = main_arg4 ∨ r = main_arg5) :
    StableHlo.after (ops0 (F := Ideal) ++ ops1) V (Proc.devRef .tc r) = V (Proc.devRef .tc r) := by
  rcases hr with rfl | rfl | rfl | rfl | rfl | rfl <;> simp only [ops0, ops1, StableHlo.after_append] <;> after_results_simp

end Aux

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v62) = RF.outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run (defs (F := Ideal)) _ _).mono (fun _ h c =>
      ⟨(h c main_v62).trans (out_eq _),
       (h c main_arg0).trans (arg_eq _ _ (by decide)),
       (h c main_arg1).trans (arg_eq _ _ (by decide)),
       (h c main_arg2).trans (arg_eq _ _ (by decide)),
       (h c main_arg3).trans (arg_eq _ _ (by decide)),
       (h c main_arg4).trans (arg_eq _ _ (by decide)),
       (h c main_arg5).trans (arg_eq _ _ (by decide))⟩)
    (StableHlo.run_seq scopedRefs_eq scopedSems_eq defs main (fun _ => ops0 ++ ops1) main_eq (fun _ => ops_sub) m ρ
      (fun _ => ops_fresh))

end Cert.ReferenceIdeal.RRun

end
-- ==== Proof.BridgeScore.lean ====
/-
  The reference's projection and head scores are the kernel's: the host's matrix product is the sum over the
  contracted coordinate; and the sum over a head's 16 lanes of projection times lane weight is the sum over all 128
  lanes of projection times (lane weight where the lane belongs to the head, zero elsewhere).
-/
import proofs.«155503_j57080115364429_1_alg».proof.Proof.KFacts
import proofs.«155503_j57080115364429_1_alg».proof.Proof.RFacts
import proofs.«155503_j57080115364429_1_alg».proof.Proof.LibPlainDot
import Idealize.ShloMosaic.PureOps.Ideal.Laws
import Idealize.ShloMosaic.Lib.Pipeline.Value
import Idealize.ShloMosaic.Lib.ValueLayout
import Idealize.ShloMosaic.Lib.IdealHost

set_option maxRecDepth 16384
noncomputable section

open scoped BigOperators

namespace Cert.Bridge

open Idealize.ShloMosaic Idealize.ShloMosaic.ValueIdx Cert.Chain Cert.Spec

/-- The reference's dimension numbers are the plain ones: contract the left operand's last axis with the right
    operand's first, no batch axis. -/
theorem dotN_eq : Cert.ReferenceIdeal.RF.dotN = DotDims.plain 100000 128 128 := rfl

theorem proj_eq (x : FVec Ideal SNx128 .f32) (w : FVec Ideal S128x128 .f32) :
    projR Cert.ReferenceIdeal.RF.dotN x w = Cert.KernelIdeal.KF.proj x w := by
  funext j
  show FloatOps.dotGeneral Cert.ReferenceIdeal.RF.dotN none .single x w j = _
  rw [dotN_eq]
  exact PlainDot.dotGeneral_apply 100000 128 128 .single x w j

/-- A sum over the 128 lanes is the sum over the 8 heads of the sums over a head's 16 lanes: lane l is lane l % 16 of
    head l / 16. -/
theorem sum_lanes (F : Fin 128 → EReal) :
    ∑ l : Fin 128, F l
      = ∑ h : Fin 8, ∑ f : Fin 16, F ⟨16 * h.val + f.val, by have := h.isLt; have := f.isLt; omega⟩ := by
  rw [← Fintype.sum_prod_type (f := fun p : Fin 8 × Fin 16 =>
    F ⟨16 * p.1.val + p.2.val, by have := p.1.isLt; have := p.2.isLt; omega⟩)]
  refine (Fintype.sum_equiv (finProdFinEquiv (m := 8) (n := 16)) _ _ fun p => ?_).symm
  exact congrArg F (Fin.ext (by show 16 * p.1.val + p.2.val = p.2.val + 16 * p.1.val; omega))

/-- THE LAW. Over the extended reals, for any g and b on the 128 lanes and any head h: the sum over all lanes of
    g l * ((one if lane l belongs to head h, else zero) * b l) is the sum over head h's 16 lanes of g * b. A lane of
    another head contributes g * (0 * b) = 0, whatever g and b are there (0 * x = 0 and x * 0 = 0 hold for every
    extended real, the infinite ones included); a lane of head h contributes g * (1 * b) = g * b. -/
theorem head_sum (g b : Fin 128 → EReal) (h : Fin 8) :
    ∑ l : Fin 128, g l * (oh l.val h.val * b l)
      = ∑ f : Fin 16, g ⟨16 * h.val + f.val, by have := h.isLt; have := f.isLt; omega⟩
          * b ⟨16 * h.val + f.val, by have := h.isLt; have := f.isLt; omega⟩ := by
  rw [sum_lanes, Finset.sum_eq_single h]
  · refine Finset.sum_congr rfl fun f _ => ?_
    have e : (16 * h.val + f.val) / 16 = h.val := by have := f.isLt; omega
    show _ * (oh (16 * h.val + f.val) h.val * _) = _
    unfold oh
    rw [if_pos e, one_mul]
  · intro h' _ hne
    refine Finset.sum_eq_zero fun f _ => ?_
    have e : ¬ (16 * h'.val + f.val) / 16 = h.val := by
      have := f.isLt
      intro c
      exact hne (Fin.ext (by omega))
    show _ * (oh (16 * h'.val + f.val) h.val * _) = _
    unfold oh
    rw [if_neg e, zero_mul, mul_zero]
  · intro hn
    exact absurd (Finset.mem_univ h) hn

/-- The reference's head scores at (n, h): zero plus the sum over the 16 lanes f of head h of the projection at
    (n, 16 h + f) (the reshape keeps the row-major position: 128 n + 16 h + f = (8 n + h) 16 + f) times the lane
    weight at (0, h, f) (the broadcast along the unit axis 0 reads the weight's one row). -/
theorem scoreR_apply (p : FVec Ideal SNx128 .f32) (a : FVec Ideal S1x8x16 .f32) (n : Fin 100000) (h : Fin 8) :
    scoreR Cert.ReferenceIdeal.RF.hR p a (ix2 n h)
      = ∑ f : Fin 16, p (ix2 n ⟨16 * h.val + f.val, by have := h.isLt; have := f.isLt; omega⟩) * a (ix3 0 h f) := by
  have hred : SNx8x16.Reduces [2] SNx8 := by decide
  refine (hostReduceAdd_apply _ _ _ _ _).trans ?_
  refine (Ideal.hostReduceAdd_single _ hred _ _ _).trans ?_
  have hz : constant (F := Ideal) S0 .f32 0x00000000#32 (Shape.Idx.first Cert.ReferenceIdeal.RF.hR.h0) = (0 : EReal) :=
    Ideal.ofBits_zero_f32
  rw [hz, zero_add]
  refine Finset.sum_congr rfl fun f _ => ?_
  rw [mulf_apply]
  refine congrArg₂ (· * ·) ?_ ?_
  · refine shapeCast_apply p _ _ _ ?_
    rw [Shape.rowMajor_val_two, Shape.rowMajor_val_three]
    show n.val * 128 + (16 * h.val + f.val) = (n.val * 8 + h.val) * 16 + f.val
    omega
  · refine broadcastInDim_apply _ _ a _ _ fun c => ?_
    match c with
    | ⟨0, _⟩ => rfl
    | ⟨1, _⟩ => rfl
    | ⟨2, _⟩ => rfl

theorem score_eq (p : FVec Ideal SNx128 .f32) (a : FVec Ideal S1x8x16 .f32) :
    scoreR Cert.ReferenceIdeal.RF.hR p a = Cert.KernelIdeal.KF.score p a := by
  funext j
  obtain ⟨n, h, rfl⟩ : ∃ (n : Fin 100000) (h : Fin 8), j = ix2 n h := ⟨j 0, j 1, eq_ix2 j⟩
  rw [scoreR_apply]
  refine Eq.trans ?_ (head_sum (fun l => p (ix2 (n0 := 100000) (n1 := 128) n l))
    (fun l => a (ix3 (n0 := 1) (n1 := 8) (n2 := 16) 0 ⟨l.val / 16, Nat.div_lt_of_lt_mul l.isLt⟩
      ⟨l.val % 16, Nat.mod_lt _ (by decide)⟩)) h).symm
  refine Finset.sum_congr rfl fun f _ => ?_
  have hf := f.isLt
  refine congrArg (fun t => p (ix2 (n0 := 100000) (n1 := 128) n ⟨16 * h.val + f.val, _⟩) * a t) ?_
  funext c
  match c with
  | ⟨0, _⟩ => rfl
  | ⟨1, _⟩ => exact Fin.ext (show h.val = (16 * h.val + f.val) / 16 by omega)
  | ⟨2, _⟩ => exact Fin.ext (show f.val = (16 * h.val + f.val) % 16 by omega)

end Cert.Bridge

end
-- ==== Proof.LibGatherRows.lean ====
/- The gather of whole rows: operand [N, C] (or [N, A, B]), start indices [n, 1], result [n, C] (or [n, A, B]); the operand's axis 0 is collapsed and named by the one component of the index vector, the other axes are offset axes taken whole. Result row j is the operand's row at start index j, read signed and clamped into [0, N - 1]. -/
import Idealize.ShloMosaic.PureOps.Ideal
import Idealize.ShloMosaic.Lib.ValueIdx

noncomputable section

open scoped BigOperators

namespace Cert.LibGatherRows

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE ROW GATHER READ AT (j, c), one offset axis. On axis 0 (collapsed, named by the start index map) the operand
    coordinate is the start word read signed and clamped so that a slice of size 1 fits; on axis 1 (an offset axis, not
    named by the start index map) the start is 0 and the offset coordinate is the result's coordinate. -/
theorem gather_rows2_apply {α : Type} {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![n, 1]⟩ w) (j : Fin n) (c : Fin C) :
    Host.gather d x idx (ix2 j c)
      = x (ix2 (⟨min (idx (ix2 j (0 : Fin 1))).toInt.toNat (N - 1), by omega⟩ : Fin N) c) := by
  unfold Host.gather
  congr 1
  funext a
  apply Fin.ext
  have hb : ∀ a : Fin 2, a ∉ d.operandBatchingDims := fun a => by rw [hob]; exact List.not_mem_nil
  -- a batch axis of the result is its axis 0 (the one axis that is not an offset axis)
  have ebatch : ∀ X : Fin 2, X ∈ d.batchDims → ((ix2 j c : (⟨2, ![n, C]⟩ : Shape).Idx) X).val = j.val := by
    intro X hX
    have hX0 : X = 0 := by
      simp only [GatherDims.batchDims, Shape.kept, hoff, List.mem_filter] at hX
      have h1 : X ≠ 1 := by simpa using hX.2
      match X with
      | ⟨0, _⟩ => rfl
      | ⟨1, _⟩ => exact absurd rfl h1
    subst hX0; rfl
  -- an offset axis of the result is its axis 1
  have eoff : ∀ X : Fin 2, X ∈ d.offsetDims → ((ix2 j c : (⟨2, ![n, C]⟩ : Shape).Idx) X).val = c.val := by
    intro X hX
    have hX1 : X = 1 := by rw [hoff] at hX; exact List.mem_singleton.mp hX
    subst hX1; rfl
  match a with
  | ⟨0, _⟩ =>
    -- the collapsed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j c) idx 0 + d.batchCoord (ix2 j c) 0 + d.offCoord (ix2 j c) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 2) d.startIndexMap = 0
      rw [hsim]; simp
  | ⟨1, _⟩ =>
    -- an offset axis: no start (the start index map does not name it), no batching coordinate, the result's coordinate
    have hk : (1 : Fin 2) ∈ d.sKept := by rw [GatherDims.mem_sKept, hcoll, hob]; simp
    have hm : (1 : Fin 2) ∉ d.startIndexMap := by rw [hsim]; simp
    show d.start (ix2 j c) idx 1 + d.batchCoord (ix2 j c) 1 + d.offCoord (ix2 j c) 1 = c.val
    rw [GatherDims.batchCoord_eq_zero _ _ _ (hb 1)]
    unfold GatherDims.start GatherDims.offCoord
    rw [dif_neg hm, dif_pos hk]
    simp only [Nat.zero_add]
    exact eoff _ (List.getElem_mem _)

/-- The same with two offset axes: the operand's kept axes 1 and 2 are read, in order, at the result's offset axes 1
    and 2. -/
theorem gather_rows3_apply {α : Type} {N n A B w : Nat} (hN : 0 < N) (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, A, B]⟩ : Shape).Idx → α) (idx : IVec ⟨2, ![n, 1]⟩ w) (j : Fin n) (a : Fin A) (b : Fin B) :
    Host.gather d x idx (ix3 j a b)
      = x (ix3 (⟨min (idx (ix2 j (0 : Fin 1))).toInt.toNat (N - 1), by omega⟩ : Fin N) a b) := by
  unfold Host.gather
  congr 1
  funext q
  apply Fin.ext
  have hb : ∀ q : Fin 3, q ∉ d.operandBatchingDims := fun q => by rw [hob]; exact List.not_mem_nil
  -- the operand's axes that are neither collapsed nor batching: 1 and 2, in order
  have hsk : d.sKept = [1, 2] := by
    simp only [GatherDims.sKept, Shape.kept, hcoll, hob]
    rfl
  -- a batch axis of the result is its axis 0 (the one axis that is not an offset axis)
  have ebatch : ∀ X : Fin 3, X ∈ d.batchDims → ((ix3 j a b : (⟨3, ![n, A, B]⟩ : Shape).Idx) X).val = j.val := by
    intro X hX
    have hX0 : X = 0 := by
      simp only [GatherDims.batchDims, Shape.kept, hoff, List.mem_filter] at hX
      have h12 : X ≠ 1 ∧ X ≠ 2 := by simpa using hX.2
      match X with
      | ⟨0, _⟩ => rfl
      | ⟨1, _⟩ => exact absurd rfl h12.1
      | ⟨2, _⟩ => exact absurd rfl h12.2
    subst hX0; rfl
  -- the result's coordinates on its axes 1 and 2
  have e1 : ∀ X : Fin 3, X = 1 → ((ix3 j a b : (⟨3, ![n, A, B]⟩ : Shape).Idx) X).val = a.val := by
    intro X hX; subst hX; rfl
  have e2 : ∀ X : Fin 3, X = 2 → ((ix3 j a b : (⟨3, ![n, A, B]⟩ : Shape).Idx) X).val = b.val := by
    intro X hX; subst hX; rfl
  have hm : ∀ q : Fin 3, q ≠ 0 → q ∉ d.startIndexMap := fun q hq => by
    rw [hsim]; exact fun h => hq (List.mem_singleton.mp h)
  match q with
  | ⟨0, _⟩ =>
    -- the collapsed axis: the clamped start, no batching and no offset coordinate
    have hk : (0 : Fin 3) ∉ d.sKept := by rw [GatherDims.mem_sKept, hcoll]; simp
    have hm0 : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j a b) idx 0 + d.batchCoord (ix3 j a b) 0 + d.offCoord (ix3 j a b) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm0]
    show min (idx _).toInt.toNat (N - d.sliceSizes 0) = min (idx (ix2 j (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 3) d.startIndexMap = 0
      rw [hsim]; simp
  | ⟨1, _⟩ =>
    -- the first offset axis: no start, no batching coordinate, the result's coordinate on its axis 1
    have hk : (1 : Fin 3) ∈ d.sKept := by rw [hsk]; simp
    show d.start (ix3 j a b) idx 1 + d.batchCoord (ix3 j a b) 1 + d.offCoord (ix3 j a b) 1 = a.val
    rw [GatherDims.batchCoord_eq_zero _ _ _ (hb 1)]
    unfold GatherDims.start GatherDims.offCoord
    rw [dif_neg (hm 1 (by decide)), dif_pos hk]
    simp only [Nat.zero_add]
    exact e1 _ ((getElem_of_eq_of_eq hoff (show List.idxOf (1 : Fin 3) d.sKept = 0 by rw [hsk]; rfl) _).trans rfl)
  | ⟨2, _⟩ =>
    -- the second offset axis: the result's coordinate on its axis 2
    have hk : (2 : Fin 3) ∈ d.sKept := by rw [hsk]; simp
    show d.start (ix3 j a b) idx 2 + d.batchCoord (ix3 j a b) 2 + d.offCoord (ix3 j a b) 2 = b.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

end Cert.LibGatherRows

end
-- ==== Proof.LibScatterAddRows.lean ====
/- The accumulating scatter of whole rows: operand [N, C] (or [N, A, B]), start indices [n, 1], updates [n, C] (or [n, A, B]); the operand's axis 0 is inserted and named by the one component of the index vector, the other axes are the update window. Update row j lands on operand row i exactly when its start index, read signed, equals i; a row outside [0, N) lands nowhere. -/
import Idealize.ShloMosaic.PureOps.Ideal
import Idealize.ShloMosaic.Lib.ValueIdx

noncomputable section

open scoped BigOperators

namespace Cert.LibScatterAddRows

open Idealize.ShloMosaic Idealize.ShloMosaic.ValueIdx

/-! ## One window axis -/

/-- An axis of a rank-2 shape is axis 0 or axis 1. -/
theorem axis2_cases {N C : Nat} (a : Fin (⟨2, ![N, C]⟩ : Shape).rank) : a = 0 ∨ a = 1 := by
  match a with
  | ⟨0, _⟩ => exact Or.inl rfl
  | ⟨1, _⟩ => exact Or.inr rfl

/-- The dimension numbers of a scatter of whole rows, one window axis. -/
abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

/-- On the inserted axis the window of update (j, c) starts at row j's start index, read signed. -/
theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the window axis the start is 0. -/
theorem rows2_start1 : (rows2Dims N n C wf).start (ix2 j c) idx 1 = 0 := by
  unfold ScatterDims.start
  rw [dif_neg]
  simp

/-- The inserted axis has window coordinate 0. -/
theorem rows2_window0 : (rows2Dims N n C wf).window (ix2 j c) 0 = 0 := by
  unfold ScatterDims.window
  rw [dif_neg]
  simp [ScatterDims.sKept, Shape.kept, List.mem_filter, List.mem_finRange]

/-- The window axis has the update's column as window coordinate. -/
theorem rows2_window1 : (rows2Dims N n C wf).window (ix2 j c) 1 = c.val := by
  unfold ScatterDims.window
  rw [dif_pos (by simp [ScatterDims.sKept, Shape.kept, List.mem_filter, List.mem_finRange])]
  rfl

/-- Update (j, c) lands on (i, c') exactly when row j's start index, read signed, is i and the columns agree. -/
theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

/-- THE ROW SCATTER-ADD READ AT (i, c), one window axis: the operand there plus the sum, over the update rows whose
    start index is i, of the update at column c. -/
theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

/-! ## Two window axes -/

/-- An axis of a rank-3 shape is axis 0, 1 or 2. -/
theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter of whole rows, two window axes. -/
abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

/-- On the inserted axis the window of update (j, a, b) starts at row j's start index, read signed. -/
theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

/-- On the first window axis the start is 0. -/
theorem rows3_start1 : (rows3Dims N n A B wf).start (ix3 j a b) idx 1 = 0 := by
  unfold ScatterDims.start
  rw [dif_neg]
  simp

/-- On the second window axis the start is 0. -/
theorem rows3_start2 : (rows3Dims N n A B wf).start (ix3 j a b) idx 2 = 0 := by
  unfold ScatterDims.start
  rw [dif_neg]
  simp

/-- The inserted axis has window coordinate 0. -/
theorem rows3_window0 : (rows3Dims N n A B wf).window (ix3 j a b) 0 = 0 := by
  unfold ScatterDims.window
  rw [dif_neg]
  simp [ScatterDims.sKept, Shape.kept, List.mem_filter, List.mem_finRange]

/-- The first window axis has the update's second coordinate as window coordinate. -/
theorem rows3_window1 : (rows3Dims N n A B wf).window (ix3 j a b) 1 = a.val := by
  unfold ScatterDims.window
  rw [dif_pos (by simp [ScatterDims.sKept, Shape.kept, List.mem_filter, List.mem_finRange])]
  rfl

/-- The second window axis has the update's third coordinate as window coordinate. -/
theorem rows3_window2 : (rows3Dims N n A B wf).window (ix3 j a b) 2 = b.val := by
  unfold ScatterDims.window
  rw [dif_pos (by simp [ScatterDims.sKept, Shape.kept, List.mem_filter, List.mem_finRange])]
  rfl

/-- Update (j, a, b) lands on (i, a', b') exactly when row j's start index, read signed, is i and the window
    coordinates agree. -/
theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

/-- The same with two window axes. -/
theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.BridgeTail.lean ====
/-
  The two programs' last stretches agree: gathering whole 128-lane rows and multiplying lane l by the weight of head
  l / 16 (the kernel: an 8-by-128 product with the zero-one matrix, seven zero terms and one) is gathering the rows in
  heads of 16 and multiplying by the head's weight (the reference); summing rows into their targets commutes with
  flattening [8, 16] to [128]; and the two spellings of the exponential linear unit are one function.
-/
import proofs.«155503_j57080115364429_1_alg».proof.Proof.KFacts
import proofs.«155503_j57080115364429_1_alg».proof.Proof.RFacts
import proofs.«155503_j57080115364429_1_alg».proof.Proof.LibGatherRows
import proofs.«155503_j57080115364429_1_alg».proof.Proof.LibScatterAddRows
import Idealize.ShloMosaic.Lib.Pipeline.Value
import Idealize.ShloMosaic.Lib.ValueLayout
import Idealize.ShloMosaic.PureOps.Ideal.Laws

set_option maxRecDepth 16384
noncomputable section

open scoped BigOperators

namespace Cert.Bridge

open Idealize.ShloMosaic Idealize.ShloMosaic.ValueIdx Cert.Chain Cert.Spec

/-! ## The spread of a head's weight over its lanes -/

/-- The product of the weights [E, 8] with the zero-one matrix [8, 128], at (e, l): of the eight terms the one of head
    l / 16 is the weight times one, the other seven are a weight times zero. -/
theorem spread_apply (att : FVec Ideal SEx8 .f32) (e : Fin 1600000) (l : Fin 128) :
    mm 1600000 8 128 att ohT (ix2 e l) = att (ix2 e (⟨l.val / 16, by omega⟩ : Fin 8)) := by
  show ∑ k : Fin 8, att (ix2 e k) * ohT (ix2 k l) = _
  rw [Finset.sum_eq_single (⟨l.val / 16, by omega⟩ : Fin 8)]
  · show att _ * oh l.val (l.val / 16) = _
    unfold oh
    rw [if_pos rfl, mul_one]
  · intro k _ hk
    show att _ * oh l.val k.val = 0
    unfold oh
    rw [if_neg (fun h => hk (Fin.ext h.symm)), mul_zero]
  · intro h
    exact absurd (Finset.mem_univ _) h

/-! ## Zero, broadcast -/

/-- The zero word broadcast from a scalar reads 0 everywhere. -/
theorem bzero_apply (T : Shape) (h : S0.BroadcastsInDim T (![] : Fin 0 → Fin T.rank)) (i : T.Idx) :
    broadcastInDim T ![] h (constant (F := Ideal) S0 .f32 0x00000000#32) i = 0 := by
  rw [broadcastInDim_apply ![] h _ i ix0 (fun a => a.elim0), constant_apply]
  exact Ideal.ofBits_zero_f32

/-! ## The rows' start: the start word read signed, clamped into the rows -/

/-- The row of the operand that edge j's start word names. -/
def rowOf (src : IVec SEx1 32) (j : Fin 1600000) : Fin 100000 :=
  ⟨min (src (ix2 j (0 : Fin 1))).toInt.toNat (100000 - 1), by omega⟩

/-- The kernel's gather of whole 128-lane rows at (j, l). -/
theorem gatherK_apply (p : FVec Ideal SNx128 .f32) (src : IVec SEx1 32) (j : Fin 1600000) (l : Fin 128) :
    Host.gather Cert.KernelIdeal.KF.g128 p src (ix2 j l) = p (ix2 (rowOf src j) l) :=
  Cert.LibGatherRows.gather_rows2_apply (by decide) Cert.KernelIdeal.KF.g128 rfl rfl rfl rfl rfl rfl p src j l

/-- The reference's gather of rows in heads at (j, a, b). -/
theorem gatherR_apply (q : FVec Ideal SNx8x16 .f32) (src : IVec SEx1 32) (j : Fin 1600000) (a : Fin 8) (b : Fin 16) :
    Host.gather Cert.ReferenceIdeal.RF.g3 q src (ix3 j a b) = q (ix3 (rowOf src j) a b) :=
  Cert.LibGatherRows.gather_rows3_apply (by decide) Cert.ReferenceIdeal.RF.g3 rfl rfl rfl rfl rfl rfl q src j a b

/-- Entry (n, l / 16, l % 16) of an [N, 128] array taken in heads is its entry (n, l). -/
theorem heads_apply {α : Type} (x : SNx128.Idx → α) (h : SNx128.ShapeCasts SNx8x16) (n : Fin 100000) (l : Fin 128) :
    shapeCast SNx8x16 x h (ix3 n (⟨l.val / 16, by omega⟩ : Fin 8) (⟨l.val % 16, by omega⟩ : Fin 16)) = x (ix2 n l) := by
  refine shapeCast_apply x h _ (ix2 n l) ?_
  rw [Shape.rowMajor_val_two, Shape.rowMajor_val_three]
  show n.val * 128 + l.val = (n.val * 8 + l.val / 16) * 16 + l.val % 16
  omega

/-- Entry (n, l) of the flattening of an [N, 8, 16] array is its entry (n, l / 16, l % 16). -/
theorem flat_apply {α : Type} (y : SNx8x16.Idx → α) (h : SNx8x16.ShapeCasts SNx128) (n : Fin 100000) (l : Fin 128) :
    shapeCast SNx128 y h (ix2 n l) = y (ix3 n (⟨l.val / 16, by omega⟩ : Fin 8) (⟨l.val % 16, by omega⟩ : Fin 16)) := by
  refine shapeCast_apply y h _ _ ?_
  rw [Shape.rowMajor_val_two, Shape.rowMajor_val_three]
  show (n.val * 8 + l.val / 16) * 16 + l.val % 16 = n.val * 128 + l.val
  omega

/-! ## A message at an index, on both sides -/

/-- The reference's message at (j, l / 16, l % 16): the source's projection at lane l times the weight of head l / 16
    (the weights [E, 8] broadcast over a unit axis and then over the 16 lanes of a head). -/
theorem msgR_apply (p : FVec Ideal SNx128 .f32) (att : FVec Ideal SEx8 .f32) (src : IVec SEx1 32)
    (h23 : SNx128.ShapeCasts SNx8x16) (hb1 : SEx8.BroadcastsInDim SEx8x1 (![0, 1] : Fin 2 → Fin SEx8x1.rank))
    (hb2 : SEx8x1.BroadcastsInDim SEx8x16 (![0, 1, 2] : Fin 3 → Fin SEx8x16.rank)) (j : Fin 1600000) (l : Fin 128) :
    mulf (Host.gather Cert.ReferenceIdeal.RF.g3 (shapeCast SNx8x16 p h23) src)
        (broadcastInDim SEx8x16 ![0, 1, 2] hb2 (broadcastInDim SEx8x1 ![0, 1] hb1 att))
        (ix3 j (⟨l.val / 16, by omega⟩ : Fin 8) (⟨l.val % 16, by omega⟩ : Fin 16))
      = p (ix2 (rowOf src j) l) * att (ix2 j (⟨l.val / 16, by omega⟩ : Fin 8)) := by
  rw [mulf_apply, gatherR_apply, heads_apply]
  congr 1
  refine (broadcastInDim_apply ![0, 1, 2] hb2 _ _ (ix3 j (⟨l.val / 16, by omega⟩ : Fin 8) (0 : Fin 1)) ?_).trans ?_
  · intro a
    match a with
    | ⟨0, _⟩ => rfl
    | ⟨1, _⟩ => rfl
    | ⟨2, _⟩ => rfl
  · refine broadcastInDim_apply ![0, 1] hb1 att _ (ix2 j (⟨l.val / 16, by omega⟩ : Fin 8)) ?_
    intro a
    match a with
    | ⟨0, _⟩ => rfl
    | ⟨1, _⟩ => rfl

/-- The kernel's message at (j, l): the same product. -/
theorem msgK_apply (p : FVec Ideal SNx128 .f32) (att : FVec Ideal SEx8 .f32) (src : IVec SEx1 32) (j : Fin 1600000) (l : Fin 128) :
    Cert.KernelIdeal.KF.msgOf (Host.gather Cert.KernelIdeal.KF.g128 p src) att ohT (ix2 j l)
      = p (ix2 (rowOf src j) l) * att (ix2 j (⟨l.val / 16, by omega⟩ : Fin 8)) := by
  show Host.gather Cert.KernelIdeal.KF.g128 p src (ix2 j l) * mm 1600000 8 128 att ohT (ix2 j l) = _
  rw [gatherK_apply, spread_apply]

/-! ## The sums into the targets' rows, on both sides -/

/-- The reference's aggregate plus skip, flattened, at (n, l). -/
theorem aggR_apply (upd : FVec Ideal SEx8x16 .f32) (tgt : IVec SEx1 32) (sk : FVec Ideal SNx128 .f32)
    (h23 : SNx128.ShapeCasts SNx8x16) (h32 : SNx8x16.ShapeCasts SNx128)
    (hz : S0.BroadcastsInDim SNx8x16 (![] : Fin 0 → Fin SNx8x16.rank)) (n : Fin 100000) (l : Fin 128) :
    shapeCast SNx128
        (addf (Host.scatterAdd Cert.ReferenceIdeal.RF.sc3
            (broadcastInDim SNx8x16 ![] hz (constant (F := Ideal) S0 .f32 0x00000000#32)) tgt upd)
          (shapeCast SNx8x16 sk h23)) h32 (ix2 n l)
      = (0 + ∑ j ∈ Finset.univ.filter (fun j : Fin 1600000 => (tgt (ix2 j (0 : Fin 1))).toInt = (n.val : ℤ)),
              upd (ix3 j (⟨l.val / 16, by omega⟩ : Fin 8) (⟨l.val % 16, by omega⟩ : Fin 16)))
          + sk (ix2 n l) := by
  rw [flat_apply, addf_apply, heads_apply,
    Cert.LibScatterAddRows.scatterAdd_rows3_apply Cert.ReferenceIdeal.RF.sc3 rfl rfl rfl rfl, bzero_apply]

/-- The kernel's aggregate at (n, l). -/
theorem aggK_apply (upd : FVec Ideal SEx128 .f32) (tgt : IVec SEx1 32)
    (hz : S0.BroadcastsInDim SNx128 (![] : Fin 0 → Fin SNx128.rank)) (n : Fin 100000) (l : Fin 128) :
    Host.scatterAdd Cert.KernelIdeal.KF.sc128
        (broadcastInDim SNx128 ![] hz (constant (F := Ideal) S0 .f32 0x00000000#32)) tgt upd (ix2 n l)
      = 0 + ∑ j ∈ Finset.univ.filter (fun j : Fin 1600000 => (tgt (ix2 j (0 : Fin 1))).toInt = (n.val : ℤ)), upd (ix2 j l) := by
  rw [Cert.LibScatterAddRows.scatterAdd_rows2_apply Cert.KernelIdeal.KF.sc128 rfl rfl rfl rfl, bzero_apply]

/-! ## The exponential linear unit, two spellings -/

/-- The word of 1.0 broadcast from a scalar reads 1 everywhere. -/
theorem bone_apply (T : Shape) (h : S0.BroadcastsInDim T (![] : Fin 0 → Fin T.rank)) (i : T.Idx) :
    broadcastInDim T ![] h (constant (F := Ideal) S0 .f32 0x3F800000#32) i = 1 := by
  rw [broadcastInDim_apply ![] h _ i ix0 (fun a => a.elim0), constant_apply]
  exact IdealRules.sign_bit.ideal_onePat .f32

/-- On one extended real: where v is positive both give v; elsewhere the first selects exp of v (not of 0) and takes
    1 off, as the second does. -/
theorem elu_scalar (v : EReal) :
    Scalar.select (Ideal.cmp .ogt v 0) v (Ideal.exp (Scalar.select (Ideal.cmp .ogt v 0) 0 v) - 1) = eluK v := by
  have hc : Ideal.cmp .ogt v 0 = BitVec.ofBool (decide (0 < v)) := rfl
  rw [hc]
  unfold eluK
  by_cases h : 0 < v
  · rw [decide_eq_true h, if_pos h]
    exact select_one _ _
  · rw [decide_eq_false h, if_neg h]
    show Scalar.select 0#1 v (Ideal.exp (Scalar.select 0#1 0 v) - 1) = _
    rw [select_zero, select_zero]

/-- The reference's spelling at an index is the kernel's function of the entry. -/
theorem elu_apply (hR : RefFacts) (z : FVec Ideal SNx128 .f32) (i : SNx128.Idx) : eluR hR z i = eluK (z i) := by
  have h0 : broadcastInDim SNx128 ![] hR.b0N128 (constant (F := Ideal) S0 .f32 0x00000000#32) i = 0 := bzero_apply _ _ i
  have h1 : broadcastInDim SNx128 ![] hR.b0N128 (constant (F := Ideal) S0 .f32 0x3F800000#32) i = 1 := bone_apply _ _ i
  show Scalar.select (Ideal.cmp .ogt (z i) (broadcastInDim SNx128 ![] hR.b0N128 (constant (F := Ideal) S0 .f32 0x00000000#32) i)) (z i)
      (broadcastInDim SNx128 ![] hR.b0N128 (constant (F := Ideal) S0 .f32 0x3F800000#32) i
        * (Ideal.exp (Scalar.select
              (Ideal.cmp .ogt (z i) (broadcastInDim SNx128 ![] hR.b0N128 (constant (F := Ideal) S0 .f32 0x00000000#32) i))
              (broadcastInDim SNx128 ![] hR.b0N128 (constant (F := Ideal) S0 .f32 0x00000000#32) i) (z i)) - 1))
    = eluK (z i)
  rw [h0, h1, one_mul]
  exact elu_scalar (z i)

/-! ## The two last stretches at an index -/

/-- The kernel's last stretch at (n, l). -/
theorem tailK_apply (p : FVec Ideal SNx128 .f32) (att : FVec Ideal SEx8 .f32) (ei : IVec S2xE 32) (sk : FVec Ideal SNx128 .f32)
    (n : Fin 100000) (l : Fin 128) :
    Cert.KernelIdeal.KF.tailK p att ei sk (ix2 n l)
      = eluK ((0 + ∑ j ∈ Finset.univ.filter (fun j : Fin 1600000 =>
                  (col Cert.KernelIdeal.KF.hI (tgtRow Cert.KernelIdeal.KF.hI ei) (ix2 j (0 : Fin 1))).toInt = (n.val : ℤ)),
              p (ix2 (rowOf (wrapCol Cert.KernelIdeal.KF.hI (srcRow Cert.KernelIdeal.KF.hI ei)) j) l)
                * att (ix2 j (⟨l.val / 16, by omega⟩ : Fin 8)))
          + sk (ix2 n l)) := by
  unfold Cert.KernelIdeal.KF.tailK Cert.KernelIdeal.KF.finOf Cert.KernelIdeal.KF.msgK aggOf gatherP
  dsimp only
  rw [aggK_apply,
    Finset.sum_congr rfl (fun j _ => msgK_apply p att (wrapCol Cert.KernelIdeal.KF.hI (srcRow Cert.KernelIdeal.KF.hI ei)) j l)]

/-- The reference's last stretch at (n, l). -/
theorem tailR_apply (p : FVec Ideal SNx128 .f32) (att : FVec Ideal SEx8 .f32) (ei : IVec S2xE 32) (sk : FVec Ideal SNx128 .f32)
    (n : Fin 100000) (l : Fin 128) :
    tailR Cert.ReferenceIdeal.RF.hI Cert.ReferenceIdeal.RF.hR Cert.ReferenceIdeal.RF.g3 Cert.ReferenceIdeal.RF.sc3 p att ei sk (ix2 n l)
      = eluK ((0 + ∑ j ∈ Finset.univ.filter (fun j : Fin 1600000 =>
                  (col Cert.ReferenceIdeal.RF.hI (tgtRow Cert.ReferenceIdeal.RF.hI ei) (ix2 j (0 : Fin 1))).toInt = (n.val : ℤ)),
              p (ix2 (rowOf (wrapCol Cert.ReferenceIdeal.RF.hI (srcRow Cert.ReferenceIdeal.RF.hI ei)) j) l)
                * att (ix2 j (⟨l.val / 16, by omega⟩ : Fin 8)))
          + sk (ix2 n l)) := by
  unfold tailR
  rw [elu_apply, aggR_apply,
    Finset.sum_congr rfl (fun j _ => msgR_apply p att (wrapCol Cert.ReferenceIdeal.RF.hI (srcRow Cert.ReferenceIdeal.RF.hI ei))
      Cert.ReferenceIdeal.RF.hR.c23 Cert.ReferenceIdeal.RF.hR.bE8E81 Cert.ReferenceIdeal.RF.hR.bE81E816 j l)]

/-! ## The two last stretches -/

theorem tail_eq (p : FVec Ideal SNx128 .f32) (att : FVec Ideal SEx8 .f32) (ei : IVec S2xE 32) (sk : FVec Ideal SNx128 .f32) :
    tailR Cert.ReferenceIdeal.RF.hI Cert.ReferenceIdeal.RF.hR Cert.ReferenceIdeal.RF.g3 Cert.ReferenceIdeal.RF.sc3 p att ei sk
      = Cert.KernelIdeal.KF.tailK p att ei sk := by
  funext i
  obtain ⟨n, l, rfl⟩ : ∃ (n : Fin 100000) (l : Fin 128), i = ix2 n l := ⟨i 0, i 1, eq_ix2 i⟩
  -- the two index side-condition packages are proofs of one proposition
  have hI : Cert.ReferenceIdeal.RF.hI = Cert.KernelIdeal.KF.hI := rfl
  rw [tailR_apply, tailK_apply, hI]

end Cert.Bridge

end
-- ==== Proof.Bridge.lean ====
/-
  The reference's function of the argument arrays is the kernel's.
-/
import proofs.«155503_j57080115364429_1_alg».proof.Proof.BridgeScore
import proofs.«155503_j57080115364429_1_alg».proof.Proof.BridgeTail

noncomputable section

open scoped BigOperators

namespace Cert.Bridge

open Idealize.ShloMosaic Cert.Chain

/-- The shared attention chain at the reference's side conditions and records is the chain at the kernel's: the side
    conditions are propositions and the records have the same fields. -/
theorem att_eq (ss st : FVec Ideal SNx8 .f32) (ei : IVec S2xE 32) :
    attOf Cert.ReferenceIdeal.RF.hI Cert.ReferenceIdeal.RF.hA Cert.ReferenceIdeal.RF.g8 Cert.ReferenceIdeal.RF.sc8 ss st ei
      = attOf Cert.KernelIdeal.KF.hI Cert.KernelIdeal.KF.hA Cert.KernelIdeal.KF.g8 Cert.KernelIdeal.KF.sc8 ss st ei := rfl

theorem out_eq (x : FVec Ideal SNx128 .f32) (ei : IVec S2xE 32) (wp ws : FVec Ideal S128x128 .f32) (aS aT : FVec Ideal S1x8x16 .f32) :
    Cert.ReferenceIdeal.RF.outR x ei wp ws aS aT = Cert.KernelIdeal.KF.outK x ei wp ws aS aT := by
  unfold Cert.ReferenceIdeal.RF.outR Cert.KernelIdeal.KF.outK
  rw [tail_eq, proj_eq, proj_eq, score_eq, score_eq, att_eq]

end Cert.Bridge

end
-- ==== Proof.lean ====
/-
  The certificate of the graph-attention layer kernel against its reference, over the extended reals.

  Both programs compute, for N = 100000 nodes with 128 features in 8 heads of 16 lanes and E = 1600000 edges: the
  projections x · W_proj and x · W_skip; per node and head a source and a target score, the sum over the head's lanes of
  the projection times a lane weight; per edge and head the leaky rectifier of score_src (source) + score_tgt (target),
  shifted by its global maximum, exponentiated and normalised by the sum over the edges with the same target; the
  source's projection row weighted by the head's attention and summed into the target's row; plus the skip projection,
  through the exponential linear unit.

  The kernel's program does the dense stages in three kernel regions (the projections and scores; the weighting of the
  gathered rows; the final sum and unit) and takes a head's lane sum as a 128-by-8 matrix product with the lane
  weights placed on the head's lanes, and the spreading of a head's weight over its lanes as an 8-by-128 product with
  the zero-one lane-of-head matrix; the reference reshapes [N, 128] to [N, 8, 16] instead. The two agree because the
  products' extra terms are zero (0 · y = 0 for every extended real), reshaping is a relabelling of indices, the host
  stretch from the scores to the attention weights is the same operations on both sides, and exp v - 1 is both
  programs' reading of the unit's negative branch. No finiteness of the inputs is needed for the equality.

  Frames: the kernel's two programs by their generated frame certificates; the reference by its run with the result
  dropped. The kernel's value: its run with the result array named (KRun), read region by region (KVal over KReg0,
  KReg1, KReg2, KHost0, KHost1); the reference's value: its run (RRun); the bridge: Bridge.
-/
import proofs.«155503_j57080115364429_1_alg».proof.Defs
import proofs.«155503_j57080115364429_1_alg».proof.Proof.Gen.Kernel
import proofs.«155503_j57080115364429_1_alg».proof.Proof.Gen.Kernel.Frame
import proofs.«155503_j57080115364429_1_alg».proof.Proof.Gen.KernelIdeal
import proofs.«155503_j57080115364429_1_alg».proof.Proof.Gen.KernelIdeal.Frame
import proofs.«155503_j57080115364429_1_alg».proof.Proof.Gen.ReferenceIdeal
import proofs.«155503_j57080115364429_1_alg».proof.Proof.Gen.Pre_finite_inputs
import proofs.«155503_j57080115364429_1_alg».proof.Proof.KRun
import proofs.«155503_j57080115364429_1_alg».proof.Proof.KVal
import proofs.«155503_j57080115364429_1_alg».proof.Proof.RRun
import proofs.«155503_j57080115364429_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.RRun.run m ρ)

/-- From memories agreeing on the arguments both programs end with the result array at the kernel's function of the
    arguments: the kernel's by its run read region by region, the reference's by its run and the bridge. -/
theorem algebraic : Cert.algebraic_KernelIdeal_ReferenceIdeal := by
  intro m ρ m' ρ' _ hagree
  refine ⟨fun c => Cert.KernelIdeal.KF.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KVal.w11_out m ρ c), (h c).2⟩) (Cert.KernelIdeal.KRun.run_value m ρ)
  · refine (θ_run Cert.ReferenceIdeal.defs _ _).mono (fun r h c => ⟨(h c).1.trans ?_, (h c).2⟩)
      (Cert.ReferenceIdeal.RRun.run m' ρ')
    rw [(hagree c).1, (hagree c).2.1, (hagree c).2.2.1, (hagree c).2.2.2.1, (hagree c).2.2.2.2.1, (hagree c).2.2.2.2.2]
    exact Cert.Bridge.out_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
